-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x128 : Shape := ⟨2, ![800000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x64 .f32) (main_arg11 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S800000x128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg2
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S800000x128 : Shape := ⟨2, ![800000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x128 : Shape := ⟨2, ![1, 128]⟩
abbrev S1x64 : Shape := ⟨2, ![1, 64]⟩
abbrev S5000x128 : Shape := ⟨2, ![5000, 128]⟩
abbrev S5000 : Shape := ⟨1, ![5000]⟩
abbrev S5000x1 : Shape := ⟨2, ![5000, 1]⟩
abbrev S50000x64 : Shape := ⟨2, ![50000, 64]⟩
abbrev S5000x64 : Shape := ⟨2, ![5000, 64]⟩

abbrev nBuf : Space → Nat
  | .hbm => 67
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000x1, .f32⟩
  | .hbm, ⟨18, _⟩ => ⟨S_, .f32⟩
  | .hbm, ⟨19, _⟩ => ⟨S50000x1, .f32⟩
  | .hbm, ⟨20, _⟩ => ⟨S800000x1, .i32⟩
  | .hbm, ⟨21, _⟩ => ⟨S50000x1, .f32⟩
  | .hbm, ⟨22, _⟩ => ⟨S_, .f32⟩
  | .hbm, ⟨23, _⟩ => ⟨S50000x1, .f32⟩
  | .hbm, ⟨24, _⟩ => ⟨S50000x1, .f32⟩
  | .hbm, ⟨25, _⟩ => ⟨S_, .f32⟩
  | .hbm, ⟨26, _⟩ => ⟨S50000x1, .f32⟩
  | .hbm, ⟨27, _⟩ => ⟨S50000x1, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x64, .f32⟩
  | .hbm, ⟨33, _⟩ => ⟨S50000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S1x128, .f32⟩
  | .local _ .vmem, ⟨30, _⟩ => ⟨S128x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30_0 : Ref sig .tc := ⟨.hbm, 49, rfl⟩
abbrev main_v30_1 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc1_stg8_0 : Ref sig .tc := ⟨.vmem, 17, rfl⟩
abbrev cc1_stg8_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg10_0 : Ref sig .tc := ⟨.vmem, 32, rfl⟩
abbrev cc2_stg10_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc1_sem8_0 : DmaSem sig := 17
abbrev cc1_sem8_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem9_0 : DmaSem sig := 31
abbrev cc2_sem10_0 : DmaSem sig := 32
abbrev cc2_sem10_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  shapeCasts_S128_S1x128 : S128.ShapeCasts S1x128
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S800000 : S_.BroadcastsInDim S800000 (![] : Fin 0 → Fin S800000.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000x1_S800000x1_S800000x1_1_0_0_1_wf : ScatterDims.WF S50000x1 S800000x1 S800000x1 [1] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x64.size a ≤ S128x64.size a
  hwx2_8 : ∀ i : grid2.Coords, EltTy.bits .f32 = 32 ∨ (Rect.block (s := S128x64) S128x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x64.size a ≤ S50000x64.size a
  hwx2_10 : ∀ i : grid2.Coords, EltTy.bits .f32 = 32 ∨ (Rect.block (s := S50000x64) S5000x64.size (cc2_transform_10 i) (hinb2_10 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v30_1) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30_1) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30_0) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v13) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v14) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v15) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg10) S128x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v16) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v43) S5000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x128 : Shape := ⟨2, ![800000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S50000x1 : Shape := ⟨2, ![50000, 1]⟩
abbrev S50000 : Shape := ⟨1, ![50000]⟩
abbrev S50000x64 : Shape := ⟨2, ![50000, 64]⟩
abbrev S1x64 : Shape := ⟨2, ![1, 64]⟩

abbrev nBuf : Space → Nat
  | .hbm => 149
  | .vmem => 0
  | .smem => 0
  | _ => 0

abbrev hbmTy0_0 (i : Nat) : BufTy := match i % 128 with
  | 0 => ⟨S50000x128, .f32⟩
  | 1 => ⟨S2x800000, .i32⟩
  | 2 => ⟨S800000x128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128x64, .f32⟩
  | 11 => ⟨S64, .f32⟩
  | 12 => ⟨S1x800000, .i32⟩
  | 13 => ⟨S800000, .i32⟩
  | 14 => ⟨S1x800000, .i32⟩
  | 15 => ⟨S800000, .i32⟩
  | 16 => ⟨S50000x128, .f32⟩
  | 17 => ⟨S1x128, .f32⟩
  | 18 => ⟨S50000x128, .f32⟩
  | 19 => ⟨S50000x128, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S_, .f32⟩
  | 34 => ⟨S800000x1, .f32⟩
  | 35 => ⟨S_, .f32⟩
  | 36 => ⟨S50000x1, .f32⟩
  | 37 => ⟨S800000x1, .i32⟩
  | 38 => ⟨S50000x1, .f32⟩
  | 39 => ⟨S_, .f32⟩
  | 40 => ⟨S50000x1, .f32⟩
  | 41 => ⟨S50000x1, .f32⟩
  | 42 => ⟨S50000x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S50000x128, .f32⟩
  | 49 => ⟨S50000x128, .f32⟩
  | 50 => ⟨S_, .f32⟩
  | 51 => ⟨S50000, .f32⟩
  | 52 => ⟨S50000x1, .f32⟩
  | 53 => ⟨S_, .f32⟩
  | 54 => ⟨S50000x1, .f32⟩
  | 55 => ⟨S50000x1, .f32⟩
  | 56 => ⟨S50000x128, .f32⟩
  | 57 => ⟨S50000x128, .f32⟩
  | 58 => ⟨S50000x128, .f32⟩
  | 59 => ⟨S_, .f32⟩
  | 60 => ⟨S50000, .f32⟩
  | 61 => ⟨S50000x1, .f32⟩
  | 62 => ⟨S_, .f32⟩
  | 63 => ⟨S50000x1, .f32⟩
  | 64 => ⟨S50000x1, .f32⟩
  | 65 => ⟨S50000x128, .f32⟩
  | 66 => ⟨S50000x128, .f32⟩
  | 67 => ⟨S_, .f32⟩
  | 68 => ⟨S50000x1, .f32⟩
  | 69 => ⟨S50000x1, .f32⟩
  | 70 => ⟨S50000x1, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x128, .f32⟩
  | 91 => ⟨S_, .f32⟩
  | 92 => ⟨S50000x128, .f32⟩
  | 93 => ⟨S800000x1, .i32⟩
  | 94 => ⟨S50000x128, .f32⟩
  | 95 => ⟨S_, .f32⟩
  | 96 => ⟨S800000x1, .f32⟩
  | 97 => ⟨S_, .f32⟩
  | 98 => ⟨S50000x1, .f32⟩
  | 99 => ⟨S800000x1, .i32⟩
  | 100 => ⟨S50000x1, .f32⟩
  | 101 => ⟨S_, .f32⟩
  | 102 => ⟨S50000x1, .f32⟩
  | 103 => ⟨S50000x1, .f32⟩
  | 104 => ⟨S50000x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S50000x128, .f32⟩
  | 111 => ⟨S50000x128, .f32⟩
  | 112 => ⟨S50000x128, .f32⟩
  | 113 => ⟨S_, .f32⟩
  | 114 => ⟨S50000, .f32⟩
  | 115 => ⟨S50000x1, .f32⟩
  | 116 => ⟨S_, .f32⟩
  | 117 => ⟨S50000x1, .f32⟩
  | 118 => ⟨S50000x1, .f32⟩
  | 119 => ⟨S50000x128, .f32⟩
  | 120 => ⟨S50000x128, .f32⟩
  | 121 => ⟨S50000x128, .f32⟩
  | 122 => ⟨S_, .f32⟩
  | 123 => ⟨S50000, .f32⟩
  | 124 => ⟨S50000x1, .f32⟩
  | 125 => ⟨S_, .f32⟩
  | 126 => ⟨S50000x1, .f32⟩
  | 127 => ⟨S50000x1, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x1, .f32⟩
  | 4 => ⟨S50000x1, .f32⟩
  | 5 => ⟨S50000x1, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S50000x64, .f32⟩
  | 18 => ⟨S1x64, .f32⟩
  | 19 => ⟨S50000x64, .f32⟩
  | 20 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call0_cst : Ref sig .tc := ⟨.hbm, 79, rfl⟩
abbrev main_call0_v0 : Ref sig .tc := ⟨.hbm, 80, rfl⟩
abbrev main_v56 : Ref sig .tc := ⟨.hbm, 81, rfl⟩
abbrev main_c_9 : Ref sig .tc := ⟨.hbm, 82, rfl⟩
abbrev main_v57 : Ref sig .tc := ⟨.hbm, 83, rfl⟩
abbrev main_v58 : Ref sig .tc := ⟨.hbm, 84, rfl⟩
abbrev main_c_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_12 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_15 : Ref sig .tc := ⟨.hbm, 113, rfl⟩
abbrev main_v82 : Ref sig .tc := ⟨.hbm, 114, rfl⟩
abbrev main_v83 : Ref sig .tc := ⟨.hbm, 115, rfl⟩
abbrev main_cst_16 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_17 : Ref sig .tc := ⟨.hbm, 122, rfl⟩
abbrev main_v89 : Ref sig .tc := ⟨.hbm, 123, rfl⟩
abbrev main_v90 : Ref sig .tc := ⟨.hbm, 124, rfl⟩
abbrev main_cst_18 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_19 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_call1_cst : Ref sig .tc := ⟨.hbm, 142, rfl⟩
abbrev main_call1_v0 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x64_S50000x64_1_0_0_1_n_n_wf : DotDims.WF S50000x128 S128x64 S50000x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The mathematics both programs compute, row by row, on the extended reals.

  A node's feature row goes through an affine map (the encoder), twice through a neighbourhood-mean convolution
  (a row of the mean-aggregated features times one matrix, plus a bias, plus the node's own row times another
  matrix), and through a layer normalisation with a rectifier: the row minus its mean, times the reciprocal square
  root of its variance plus a constant, times a gain, plus an offset, clipped below at zero.  Every one of these maps
  reads ONE row of each row-indexed operand, so an array of rows is mapped row by row, whatever the number of rows: a
  block of rows of the result is the same map applied to the same block of rows of the operands.
-/
import Idealize.ShloMosaic.PureOps.Ideal.Laws
import Idealize.ShloMosaic.Lib.ValueIdx

noncomputable section

open scoped BigOperators

namespace Cert.Sage

open Idealize.ShloMosaic Idealize.ShloMosaic.ValueIdx

/-- An array of `n` rows of `d` extended reals. -/
abbrev Arr2 (n d : ℕ) : Type := (⟨2, ![n, d]⟩ : Shape).Idx → EReal

/-- Row `r` of an array. -/
def rowOf {n d : ℕ} (X : Arr2 n d) (r : Fin n) : Fin d → EReal := fun k => X (ix2 r k)

/-- A row of `a` entries times an `a × b` matrix. -/
def rowMat {a b : ℕ} (x : Fin a → EReal) (W : Arr2 a b) : Fin b → EReal :=
  fun q => ∑ k : Fin a, x k * W (ix2 k q)

/-- The affine map of a row: the row times a matrix, plus a bias row. -/
def affRow {a b : ℕ} (x : Fin a → EReal) (W : Arr2 a b) (bias : Fin b → EReal) : Fin b → EReal :=
  fun q => rowMat x W q + bias q

/-- The convolution's row: the aggregated row through one affine map, plus the node's own row times a second matrix. -/
def convRow (mr hr : Fin 128 → EReal) (Wl : Arr2 128 128) (bl : Fin 128 → EReal) (Wr : Arr2 128 128) : Fin 128 → EReal :=
  fun q => affRow mr Wl bl q + rowMat hr Wr q

/-- The number of features, `128`, as the float literal both programs divide by. -/
def c128 : EReal := Ideal.ofBits .f32 0x43000000#32
/-- The constant both programs add to the variance. -/
def epsv : EReal := Ideal.ofBits .f32 0x3727C5AC#32
/-- The rectifier's floor, the float zero. -/
def zerov : EReal := Ideal.ofBits .f32 0x00000000#32

/-- A row's mean. -/
def rowMean (h : Fin 128 → EReal) : EReal := Ideal.div (∑ k : Fin 128, h k) c128
/-- A row's variance about its mean. -/
def rowVar (h : Fin 128 → EReal) : EReal :=
  Ideal.div (∑ k : Fin 128, (h k - rowMean h) * (h k - rowMean h)) c128
/-- The normalised row: each entry minus the mean, times the reciprocal square root of the variance plus the constant. -/
def normRow (h : Fin 128 → EReal) : Fin 128 → EReal :=
  fun q => (h q - rowMean h) * Ideal.rsqrt (rowVar h + epsv)
/-- The normalised row under its gain and offset, clipped below at zero. -/
def actRow (h γ β : Fin 128 → EReal) : Fin 128 → EReal :=
  fun q => max (normRow h q * γ q + β q) zerov

/-! ## Arrays of rows, mapped row by row -/

/-- The encoder on an array of rows. -/
def encArr {n : ℕ} (X : Arr2 n 128) (W : Arr2 128 128) (bias : Fin 128 → EReal) : Arr2 n 128 :=
  fun j => affRow (rowOf X (j 0)) W bias (j 1)

/-- The convolution on arrays of rows. -/
def convArr {n : ℕ} (M H : Arr2 n 128) (Wl : Arr2 128 128) (bl : Fin 128 → EReal) (Wr : Arr2 128 128) : Arr2 n 128 :=
  fun j => convRow (rowOf M (j 0)) (rowOf H (j 0)) Wl bl Wr (j 1)

/-- The normalisation with its rectifier on an array of rows. -/
def actArr {n : ℕ} (H : Arr2 n 128) (γ β : Fin 128 → EReal) : Arr2 n 128 :=
  fun j => actRow (rowOf H (j 0)) γ β (j 1)

/-- The second convolution with its residual: the convolution of the activated rows plus the first convolution's rows. -/
def resArr {n : ℕ} (M R H1 : Arr2 n 128) (Wl : Arr2 128 128) (bl : Fin 128 → EReal) (Wr : Arr2 128 128) : Arr2 n 128 :=
  fun j => convArr M R Wl bl Wr j + H1 j

/-- The output projection of the activated rows. -/
def outArr {n : ℕ} (H : Arr2 n 128) (γ β : Fin 128 → EReal) (Wo : Arr2 128 64) (bo : Fin 64 → EReal) : Arr2 n 64 :=
  fun j => affRow (actRow (rowOf H (j 0)) γ β) Wo bo (j 1)

/-! ## A block of rows of a row-wise map is the map of the block of rows -/

/-- Reading rows `off + p` of an array: the block of `n'` rows starting at row `off`. -/
def rowsAt {n d : ℕ} (n' off : ℕ) (h : off + n' ≤ n) (X : Arr2 n d) : Arr2 n' d :=
  fun y => X (ix2 ⟨off + (y 0).val, by have := (y 0).isLt; simp only [Matrix.cons_val_zero] at this; omega⟩ (y 1))

end Cert.Sage

end
-- ==== Proof.Host0.lean ====
/-
  The host operations before the first call, read back: the edge list's two rows as index columns, the number of edges
  into each node clipped below at one and its reciprocal, and the bias, gain and offset vectors recast as one-row
  arrays.  The argument arrays themselves are written by no host operation.
-/
import proofs.«130707_j87376814670104_1_alg».proof.Proof.Gen.KernelIdeal.Frame
import proofs.«130707_j87376814670104_1_alg».proof.Proof.Spec
import Idealize.ShloMosaic.Lib.StableHlo.Run

set_option maxRecDepth 16384

noncomputable section

open Idealize.ShloMosaic Idealize.ShloMosaic.TcCoe Idealize.ShloMosaic.ValueIdx Idealize.SL.Sem Idealize.ShloMosaic.StableHlo
open Idealize.ShloMosaic.Pipeline (Dat)

namespace Cert.KernelIdeal.Hand

open Cert.KernelIdeal Cert.KernelIdeal.Gen Cert.Sage

variable (m : (ℓ : Loc nD τ sig) → Buf (Elt Ideal) ℓ) (ρ : Dev nD → PrngReg)

/-- A buffer that no operation of a host stretch writes keeps its contents across the stretch. -/
macro "host_keeps" : tactic => `(tactic| (
  refine StableHlo.after_of_forall_not_mem _ _ (List.forall_iff_forall_mem.mp ?_)
  simp only [hostOps0, hostOps1, hostOps2, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

/-- The edges' source nodes: row 0 of the edge list. -/
def srcOf (E : (⟨S2x800000, .i32⟩ : BufTy).Contents (Elt Ideal)) : (⟨S800000, .i32⟩ : BufTy).Contents (Elt Ideal) :=
  shapeCast S800000 (extractStridedSlice S1x800000 ![0, 0] E slices_S2x800000_S1x800000_0_0) shapeCasts_S1x800000_S800000

/-- The edges' destination nodes: row 1 of the edge list. -/
def dstOf (E : (⟨S2x800000, .i32⟩ : BufTy).Contents (Elt Ideal)) : (⟨S800000, .i32⟩ : BufTy).Contents (Elt Ideal) :=
  shapeCast S800000 (extractStridedSlice S1x800000 ![1, 0] E slices_S2x800000_S1x800000_1_0) shapeCasts_S1x800000_S800000

/-- The number of edges into each node. -/
def cntOf (E : (⟨S2x800000, .i32⟩ : BufTy).Contents (Elt Ideal)) : (⟨S50000x1, .f32⟩ : BufTy).Contents (Elt Ideal) :=
  Host.scatterAdd scatter_S50000x1_S800000x1_S800000x1_1_0_0_1
    (broadcastInDim S50000x1 ![] bcast_S_S50000x1 (constant (F := Ideal) S_ .f32 0x00000000#32))
    (broadcastInDim S800000x1 ![0] bcast_S800000_S800000x1_0 (dstOf E))
    (broadcastInDim S800000x1 ![] bcast_S_S800000x1 (constant (F := Ideal) S_ .f32 0x3F800000#32))

/-- The reciprocal of each node's count clipped below at one. -/
def invOf (E : (⟨S2x800000, .i32⟩ : BufTy).Contents (Elt Ideal)) : (⟨S50000x1, .f32⟩ : BufTy).Contents (Elt Ideal) :=
  Host.divf (F := Ideal) (broadcastInDim S50000x1 ![] bcast_S_S50000x1 (constant (F := Ideal) S_ .f32 0x3F800000#32))
    (maximumf (F := Ideal) (cntOf E) (broadcastInDim S50000x1 ![] bcast_S_S50000x1 (constant (F := Ideal) S_ .f32 0x3F800000#32)))

theorem W1_v1 (c : Dev nD) : W1 m ρ c (Proc.devRef .tc main_v1) = srcOf (m ((c : Thread nD τ).loc main_arg1)) := by
  show StableHlo.after hostOps0 (W0 m ρ c) (Proc.devRef .tc main_v1) = _
  after_results; rfl

theorem W1_v3 (c : Dev nD) : W1 m ρ c (Proc.devRef .tc main_v3) = dstOf (m ((c : Thread nD τ).loc main_arg1)) := by
  show StableHlo.after hostOps0 (W0 m ρ c) (Proc.devRef .tc main_v3) = _
  after_results; rfl

theorem W1_v11 (c : Dev nD) : W1 m ρ c (Proc.devRef .tc main_v11) = invOf (m ((c : Thread nD τ).loc main_arg1)) := by
  show StableHlo.after hostOps0 (W0 m ρ c) (Proc.devRef .tc main_v11) = _
  after_results; rfl

theorem W1_v12 (c : Dev nD) : W1 m ρ c (Proc.devRef .tc main_v12) = shapeCast S1x128 (m ((c : Thread nD τ).loc main_arg4)) shapeCasts_S128_S1x128 := by
  show StableHlo.after hostOps0 (W0 m ρ c) (Proc.devRef .tc main_v12) = _
  after_results; rfl

theorem W1_v13 (c : Dev nD) : W1 m ρ c (Proc.devRef .tc main_v13) = shapeCast S1x128 (m ((c : Thread nD τ).loc main_arg6)) shapeCasts_S128_S1x128 := by
  show StableHlo.after hostOps0 (W0 m ρ c) (Proc.devRef .tc main_v13) = _
  after_results; rfl

theorem W1_v14 (c : Dev nD) : W1 m ρ c (Proc.devRef .tc main_v14) = shapeCast S1x128 (m ((c : Thread nD τ).loc main_arg8)) shapeCasts_S128_S1x128 := by
  show StableHlo.after hostOps0 (W0 m ρ c) (Proc.devRef .tc main_v14) = _
  after_results; rfl

theorem W1_v15 (c : Dev nD) : W1 m ρ c (Proc.devRef .tc main_v15) = shapeCast S1x128 (m ((c : Thread nD τ).loc main_arg9)) shapeCasts_S128_S1x128 := by
  show StableHlo.after hostOps0 (W0 m ρ c) (Proc.devRef .tc main_v15) = _
  after_results; rfl

theorem W1_v16 (c : Dev nD) : W1 m ρ c (Proc.devRef .tc main_v16) = shapeCast S1x64 (m ((c : Thread nD τ).loc main_arg11)) shapeCasts_S64_S1x64 := by
  show StableHlo.after hostOps0 (W0 m ρ c) (Proc.devRef .tc main_v16) = _
  after_results; rfl

theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  host_keeps
theorem W1_arg3 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3)
  host_keeps
theorem W1_arg5 (c : Dev nD) : W1 m ρ c (Proc.devRef .tc main_arg5) = m ((c : Thread nD τ).loc main_arg5) := by
  show StableHlo.after hostOps0 (W0 m ρ c) (Proc.devRef .tc main_arg5) = W0 m ρ c (Proc.devRef .tc main_arg5)
  host_keeps
theorem W1_arg7 (c : Dev nD) : W1 m ρ c (Proc.devRef .tc main_arg7) = m ((c : Thread nD τ).loc main_arg7) := by
  show StableHlo.after hostOps0 (W0 m ρ c) (Proc.devRef .tc main_arg7) = W0 m ρ c (Proc.devRef .tc main_arg7)
  host_keeps
theorem W1_arg10 (c : Dev nD) : W1 m ρ c (Proc.devRef .tc main_arg10) = m ((c : Thread nD τ).loc main_arg10) := by
  show StableHlo.after hostOps0 (W0 m ρ c) (Proc.devRef .tc main_arg10) = W0 m ρ c (Proc.devRef .tc main_arg10)
  host_keeps

end Cert.KernelIdeal.Hand

end
-- ==== Proof.Host1.lean ====
/-
  The host operations between the first and the second call, read back: the mean aggregation.  Each edge gathers its
  source node's row (a negative source index counted from the end), the rows are added into their destination nodes'
  rows of a zero array, and every row is multiplied by the reciprocal of its node's clipped count.
-/
import proofs.«130707_j87376814670104_1_alg».proof.Proof.Gen.KernelIdeal.Frame
import proofs.«130707_j87376814670104_1_alg».proof.Proof.Spec
import Idealize.ShloMosaic.Lib.StableHlo.Run

set_option maxRecDepth 16384

noncomputable section

open Idealize.ShloMosaic Idealize.ShloMosaic.TcCoe Idealize.ShloMosaic.ValueIdx Idealize.SL.Sem Idealize.ShloMosaic.StableHlo
open Idealize.ShloMosaic.Pipeline (Dat)

namespace Cert.KernelIdeal.Hand

open Cert.KernelIdeal Cert.KernelIdeal.Gen Cert.Sage

variable (m : (ℓ : Loc nD τ sig) → Buf (Elt Ideal) ℓ) (ρ : Dev nD → PrngReg)

/-- The rows gathered along the edges' sources and added into the edges' destinations. -/
def aggSum (H : (⟨S50000x128, .f32⟩ : BufTy).Contents (Elt Ideal)) (src dst : (⟨S800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 H
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The aggregated rows times the broadcast column of reciprocal counts. -/
def aggMul (H : (⟨S50000x128, .f32⟩ : BufTy).Contents (Elt Ideal)) (src dst : (⟨S800000, .i32⟩ : BufTy).Contents (Elt Ideal))
    (inv : (⟨S50000x1, .f32⟩ : BufTy).Contents (Elt Ideal)) : (⟨S50000x128, .f32⟩ : BufTy).Contents (Elt Ideal) :=
  mulf (F := Ideal) (φ := .f32) (aggSum H src dst) (broadcastInDim S50000x128 ![0, 1] bcast_S50000x1_S50000x128_0_1 inv)

set_option maxHeartbeats 4000000 in
theorem W3_v29 (c : Dev nD) : W3 m ρ c (Proc.devRef .tc main_v29)
    = aggMul (W2 m ρ c (Proc.devRef .tc main_v17)) (W2 m ρ c (Proc.devRef .tc main_v1)) (W2 m ρ c (Proc.devRef .tc main_v3))
        (W2 m ρ c (Proc.devRef .tc main_v11)) := by
  show StableHlo.after hostOps1 (W2 m ρ c) (Proc.devRef .tc main_v29) = _
  after_results_simp
  rfl

end Cert.KernelIdeal.Hand

end
-- ==== Proof.Host2.lean ====
/-
  The host operations between the second and the third call, read back: the same mean aggregation, of the activated rows.
-/
import proofs.«130707_j87376814670104_1_alg».proof.Proof.Host1
import Idealize.ShloMosaic.Lib.StableHlo.Run

set_option maxRecDepth 16384

noncomputable section

open Idealize.ShloMosaic Idealize.ShloMosaic.TcCoe Idealize.ShloMosaic.ValueIdx Idealize.SL.Sem Idealize.ShloMosaic.StableHlo
open Idealize.ShloMosaic.Pipeline (Dat)

namespace Cert.KernelIdeal.Hand

open Cert.KernelIdeal Cert.KernelIdeal.Gen Cert.Sage

variable (m : (ℓ : Loc nD τ sig) → Buf (Elt Ideal) ℓ) (ρ : Dev nD → PrngReg)

set_option maxHeartbeats 4000000 in
theorem W5_v42 (c : Dev nD) : W5 m ρ c (Proc.devRef .tc main_v42)
    = aggMul (W4 m ρ c (Proc.devRef .tc main_v30_1)) (W4 m ρ c (Proc.devRef .tc main_v1)) (W4 m ρ c (Proc.devRef .tc main_v3))
        (W4 m ρ c (Proc.devRef .tc main_v11)) := by
  show StableHlo.after hostOps2 (W4 m ρ c) (Proc.devRef .tc main_v42) = _
  after_results_simp
  rfl

end Cert.KernelIdeal.Hand

end
-- ==== Proof.LibPlainMatmul.lean ====
/-
  Two general facts about vector operations read at an entry, at the ideal instance (floats are extended reals).

  * A plain `M × K` by `K × N` matrix product on the matrix unit into a zero accumulator, read at entry `(r, c)`,
    is the sum over `k` of `x[r, k] · w[k, c]`: the unit's dimension numbers contract the left operand's second axis
    with the right operand's first, so re-indexing the one-axis contraction by its coordinate gives the textbook sum.
  * A column (`[a, 1]`) broadcast to `[a, b]`, read at `(p, c)`, is the column's entry at row `p`.
-/
import Idealize.ShloMosaic.PureOps.Ideal.Laws
import Idealize.ShloMosaic.Lib.ValueIdx
import Idealize.ShloMosaic.Lib.Pipeline.Value

noncomputable section

open scoped BigOperators

namespace Cert.Gnn

open Idealize.ShloMosaic Idealize.ShloMosaic.ValueIdx

/-- The left operand's row coordinate is the result's row coordinate. -/
theorem plain_lhs_row (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the result's column coordinate. -/
theorem plain_rhs_col (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain matrix product into a zero accumulator, read at an entry, is the sum over the contracted index of the
    operands' products. -/
theorem plain_matmul_apply {φ₁ φ₂ : FTy} (M K N : Nat) (prec : Option ContractPrecision)
    (x : FVec Ideal ⟨2, ![M, K]⟩ φ₁) (w : FVec Ideal ⟨2, ![K, N]⟩ φ₂) (j : (⟨2, ![M, N]⟩ : Shape).Idx) :
    FloatOps.matmul (DotDims.plain M K N) prec x w (constant ⟨2, ![M, N]⟩ .f32 0x00000000#32) j
      = ∑ k : Fin K, x (ix2 (j 0) k) * w (ix2 k (j 1)) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs_row M K N _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact plain_rhs_col M K N _ _)
  rw [el, er]
  rfl

/-- A column broadcast over a row axis: an `[a, 1]` array broadcast to `[a, b]` reads, at `(p, c)`, the column's
    entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Gnn

end
-- ==== Proof.Region0.lean ====
/-
  The encoder's call: what its output array holds after the run, for any contents the call is entered with.

  At a grid point the body stores the block of 5000 rows `x_blk · W + b`; read at an entry, the matrix unit's product
  into a zero accumulator is the sum over the contracted index, and the bias row is broadcast over the rows.  So the
  block is the row-wise affine map of the operand's block of rows; block `t` of the operand is rows `5000 t …` of the
  array, the weight and bias windows are their whole arrays, and the ten output blocks tile the output array.
-/
import proofs.«130707_j87376814670104_1_alg».proof.Proof.Gen.KernelIdeal.Frame
import proofs.«130707_j87376814670104_1_alg».proof.Proof.Spec
import proofs.«130707_j87376814670104_1_alg».proof.Proof.LibPlainMatmul
import Idealize.ShloMosaic.Lib.Pipeline.Value
import Idealize.ShloMosaic.Lib.ValueLayout

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen Cert.Sage Cert.Gnn

theorem hz2 : (![0, 0] : Fin 2 → Nat) = fun _ => 0 := funext fun a => by fin_cases a <;> rfl

/-- The body's stored block, entry by entry: the row-wise affine map of the loaded block of rows. -/
theorem pay_enc (x : Vec Ideal S5000x128 .f32) (W : Vec Ideal S128x128 .f32) (b : Vec Ideal S1x128 .f32) :
    k0_pay1 (F := Ideal) x W b = encArr (n := 5000) x W (rowOf (n := 1) b 0) := by
  funext j
  obtain ⟨p, q, rfl⟩ : ∃ (p : Fin 5000) (q : Fin 128), j = ix2 p q := ⟨j 0, j 1, eq_ix2 j⟩
  unfold k0_pay1
  have hm := plain_matmul_apply 5000 128 128 none (truncf .bf16 x bitsLt_bf16_f32) (truncf .bf16 W bitsLt_bf16_f32) (ix2 p q)
  have hb := broadcastTo_1b_ab_apply (a := 5000) b broadcasts_S1x128_S5000x128 p q
  rw [shapeCast_self]
  exact congrArg₂ (· + ·) hm hb

variable (V : (c : Dev nD) → (b : Ref sig .tc) → Buf (Elt Ideal) ((c : Thread nD τ).loc b))

/-- The windows' block indices over the grid: the row windows move with the point, the weight and bias windows stay. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The operand's block at point `t`, at its literal type. -/
abbrev xb0 (c : Dev nD) (t : Fin cfg0.N) : Vec Ideal S5000x128 .f32 := iblk0 V c 0 t
/-- The weight window's block. -/
abbrev wb0 (c : Dev nD) (t : Fin cfg0.N) : Vec Ideal S128x128 .f32 := iblk0 V c 1 t
/-- The bias window's block. -/
abbrev bb0 (c : Dev nD) (t : Fin cfg0.N) : Vec Ideal S1x128 .f32 := iblk0 V c 2 t

/-- Row `p` of the operand's block at point `t` is row `5000 t + p` of the array. -/
theorem xb0_apply (c : Dev nD) (t : Fin cfg0.N) (p : Fin 5000) (k : Fin 128) (i : S50000x128.Idx)
    (h0 : (i 0).val = t.val * 5000 + p.val) (h1 : (i 1).val = k.val) :
    xb0 V c t (ix2 p k) = (V c main_arg0 : S50000x128.Idx → EReal) i := by
  obtain ⟨e0, e1, -⟩ := idx0 t
  unfold xb0 iblk0
  rw [View.read_apply]
  show (V c main_arg0 : S50000x128.Idx → EReal) _ = _
  refine congrArg _ (funext fun a => Fin.ext ?_)
  match a with
  | ⟨0, _⟩ => show win0_0.index t (0 : Fin 2) * 5000 + 1 * p.val = (i 0).val; omega
  | ⟨1, _⟩ => show win0_0.index t (1 : Fin 2) * 128 + 1 * k.val = (i 1).val; omega

/-- The weight window's block is the whole weight array. -/
theorem wb0_eq (c : Dev nD) (t : Fin cfg0.N) : wb0 V c t = (V c main_arg3 : S128x128.Idx → EReal) := by
  obtain ⟨-, -, e0, e1, -⟩ := idx0 t
  funext y
  unfold wb0 iblk0
  rw [View.read_apply]
  show (V c main_arg3 : S128x128.Idx → EReal) _ = _
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias window's block is the whole bias row. -/
theorem bb0_eq (c : Dev nD) (t : Fin cfg0.N) : bb0 V c t = (V c main_v12 : S1x128.Idx → EReal) := by
  obtain ⟨-, -, -, -, e0, e1, -⟩ := idx0 t
  funext y
  unfold bb0 iblk0
  rw [View.read_apply]
  show (V c main_v12 : S1x128.Idx → EReal) _ = _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- What point `t` writes back is block `t` of the encoder's rows of the arrays as the call finds them. -/
theorem flushed0 (c : Dev nD) (t : Fin cfg0.N) :
    (dat0 V c).flushed 3 t = ((cfg0.win 3).blk t).view.read (Elt Ideal)
      (encArr (n := 50000) (V c main_arg0) (V c main_arg3) (rowOf (n := 1) (V c main_v12) 0)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2, View.ld_unit_zero (S := S1x128) hz2]
  show (win0 3).cut (grid0.coords t) (k0_pay1 (xb0 V c t) (wb0 V c t) (bb0 V c t)) = _
  rw [pay_enc, wb0_eq, bb0_eq]
  obtain ⟨-, -, -, -, -, -, e0, e1⟩ := idx0 t
  funext y
  rw [View.read_apply]
  have hc1 : (((cfg0.win 3).blk t).view.emb y) 1 = (⟨(y 1).val, (y 1).isLt⟩ : Fin 128) :=
    Fin.ext (by show win0_3.index t (1 : Fin 2) * 128 + 1 * (y 1).val = (y 1).val; omega)
  have hrow : rowOf (n := 5000) (xb0 V c t) ⟨(y 0).val, (y 0).isLt⟩
      = rowOf (n := 50000) (V c main_arg0) ((((cfg0.win 3).blk t).view.emb y) 0) :=
    funext fun k => xb0_apply V c t ⟨(y 0).val, (y 0).isLt⟩ k _
      (by show win0_3.index t (0 : Fin 2) * 5000 + 1 * (y 0).val = t.val * 5000 + (y 0).val; omega) rfl
  show affRow (rowOf (n := 5000) (xb0 V c t) ⟨(y 0).val, (y 0).isLt⟩) (V c main_arg3) (rowOf (n := 1) (V c main_v12) 0) (⟨(y 1).val, (y 1).isLt⟩ : Fin 128)
    = affRow (rowOf (n := 50000) (V c main_arg0) ((((cfg0.win 3).blk t).view.emb y) 0)) (V c main_arg3) (rowOf (n := 1) (V c main_v12) 0) ((((cfg0.win 3).blk t).view.emb y) 1)
  rw [hrow, hc1]

/-- The ten output blocks tile the output array, so after the run it holds the encoder's rows of the arrays as the call
    finds them. -/
theorem final0 (c : Dev nD) :
    (dat0 V c).arrAt 3 cfg0.N = encArr (n := 50000) (V c main_arg0) (V c main_arg3) (rowOf (n := 1) (V c main_v12) 0) :=
  (dat0 V c).arrAt_eq_of_cover 3 _ (fun t _ => flushed0 V c t) fun i => by
    have hi0 : (i 0).val < 50000 := (i 0).isLt
    have hi1 : (i 1).val < 128 := (i 1).isLt
    have hN : cfg0.N = 10 := N_0
    have ht : (i 0).val / 5000 < cfg0.N := by rw [hN]; omega
    obtain ⟨-, -, -, -, -, -, e0, e1⟩ := idx0 ⟨(i 0).val / 5000, ht⟩
    refine ⟨⟨(i 0).val / 5000, ht⟩, flush0_3 _, ?_⟩
    show i ∈ ((View.whole main_v17).slice (win0_3.rect ⟨(i 0).val / 5000, ht⟩)).set
    rw [View.set_slice_whole, Rect.mem_set_unit]
    intro a
    match a with
    | ⟨0, _⟩ =>
      show win0_3.index ⟨(i 0).val / 5000, ht⟩ (0 : Fin 2) * 5000 ≤ (i 0).val
        ∧ (i 0).val < win0_3.index ⟨(i 0).val / 5000, ht⟩ (0 : Fin 2) * 5000 + 5000
      rw [e0]; show (i 0).val / 5000 * 5000 ≤ (i 0).val ∧ (i 0).val < (i 0).val / 5000 * 5000 + 5000; omega
    | ⟨1, _⟩ =>
      show win0_3.index ⟨(i 0).val / 5000, ht⟩ (1 : Fin 2) * 128 ≤ (i 1).val
        ∧ (i 1).val < win0_3.index ⟨(i 0).val / 5000, ht⟩ (1 : Fin 2) * 128 + 128
      rw [e1]; omega

end Cert.KernelIdeal.Hand

end
-- ==== Proof.Region1.lean ====
/-
  The first convolution's call: what its two output arrays hold after the run, for any contents the call is entered with.

  At a grid point the body stores two blocks of 5000 rows.  The first is the convolution of the loaded blocks of rows:
  the aggregated rows times one matrix plus a bias row, plus the nodes' own rows times a second matrix; read at an entry,
  each product of the matrix unit into a zero accumulator is the sum over the contracted index, and the bias row is
  broadcast over the rows.  The second is that block normalised row by row: the sum over a row's 128 entries, kept as a
  column and divided by the float 128, is the row's mean; the same sum of the squared differences is the variance; the
  difference times the reciprocal square root of the variance plus a constant, times the gain row, plus the offset row,
  clipped below at zero, is the activated row.  Both maps read one row of each row-indexed operand, so the block at
  point `t` is the map of rows `5000 t …` of the arrays; the weight, bias, gain and offset windows are their whole
  arrays, and the ten output blocks tile each output array.
-/
import proofs.«130707_j87376814670104_1_alg».proof.Proof.Gen.KernelIdeal.Frame
import proofs.«130707_j87376814670104_1_alg».proof.Proof.Spec
import proofs.«130707_j87376814670104_1_alg».proof.Proof.LibPlainMatmul
import Idealize.ShloMosaic.Lib.Pipeline.Value
import Idealize.ShloMosaic.Lib.ValueLayout

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen Cert.Sage Cert.Gnn

theorem hz2_1 : (![0, 0] : Fin 2 → Nat) = fun _ => 0 := funext fun a => by fin_cases a <;> rfl

/-! ## The body's blocks, entry by entry -/

/-- The first stored block, entry by entry: the convolution of the loaded blocks of rows. -/
theorem pay_conv1 (m : Vec Ideal S5000x128 .f32) (Wl : Vec Ideal S128x128 .f32) (h : Vec Ideal S5000x128 .f32)
    (Wr : Vec Ideal S128x128 .f32) (bl : Vec Ideal S1x128 .f32) :
    k1_pay2 (F := Ideal) m Wl h Wr bl = convArr (n := 5000) m h Wl (rowOf (n := 1) bl 0) Wr := by
  funext j
  obtain ⟨p, q, rfl⟩ : ∃ (p : Fin 5000) (q : Fin 128), j = ix2 p q := ⟨j 0, j 1, eq_ix2 j⟩
  unfold k1_pay2
  have hm := plain_matmul_apply 5000 128 128 none (truncf .bf16 m bitsLt_bf16_f32) (truncf .bf16 Wl bitsLt_bf16_f32) (ix2 p q)
  have hh := plain_matmul_apply 5000 128 128 none (truncf .bf16 h bitsLt_bf16_f32) (truncf .bf16 Wr bitsLt_bf16_f32) (ix2 p q)
  have hb := broadcastTo_1b_ab_apply (a := 5000) bl broadcasts_S1x128_S5000x128 p q
  rw [shapeCast_self, shapeCast_self, shapeCast_self]
  exact congrArg₂ (· + ·) (congrArg₂ (· + ·) hm hb) hh

/-- The sums over the 128 entries of each row of a block, kept as a column. -/
def sumCol1 (H : FVec Ideal S5000x128 .f32) : FVec Ideal S5000x1 .f32 :=
  shapeCast S5000x1 (multiReduction (F := Ideal) .add [1] S5000 H 0x00000000#32 reduces_S5000x128_S5000 (.inl rfl) rfl)
    shapeCasts_S5000_S5000x1

/-- The column of sums at row `p` is the sum of row `p`'s entries. -/
theorem sumCol1_apply (H : FVec Ideal S5000x128 .f32) (p : Fin 5000) :
    sumCol1 H (ix2 p (0 : Fin 1)) = ∑ k : Fin 128, H (ix2 p k) := by
  unfold sumCol1
  refine (shapeCast_apply _ shapeCasts_S5000_S5000x1 (ix2 p (0 : Fin 1)) (ix1 p) ?_).trans ?_
  · rw [Shape.rowMajor_val_two, Shape.rowMajor_val_one]
    show p.val = p.val * 1 + 0
    omega
  · refine (Ideal.multiReduction_add_single H _ reduces_S5000x128_S5000 (.inl rfl) rfl (ix1 p)).trans ?_
    refine Finset.sum_congr rfl fun k _ => congrArg H (funext fun a => Fin.ext ?_)
    match a with
    | ⟨0, _⟩ => rfl
    | ⟨1, _⟩ => rfl

/-- A block minus its rows' means. -/
def centred1 (H : FVec Ideal S5000x128 .f32) : FVec Ideal S5000x128 .f32 :=
  subf H (broadcastTo S5000x128 (divf (sumCol1 H) (broadcast S5000x1 (Scalar.ofBits .f32 0x43000000#32)))
    broadcasts_S5000x1_S5000x128)

/-- Entry `(p, q)` of the centred block is the entry minus row `p`'s mean. -/
theorem centred1_apply (H : FVec Ideal S5000x128 .f32) (p : Fin 5000) (q : Fin 128) :
    centred1 H (ix2 p q) = H (ix2 p q) - rowMean (rowOf (n := 5000) H p) := by
  unfold centred1
  have hb := broadcastTo_a1_ab_apply (divf (sumCol1 H) (broadcast S5000x1 (Scalar.ofBits (F := Ideal) .f32 0x43000000#32)))
    broadcasts_S5000x1_S5000x128 p q
  have hs : divf (sumCol1 H) (broadcast S5000x1 (Scalar.ofBits (F := Ideal) .f32 0x43000000#32)) (ix2 p (0 : Fin 1))
      = rowMean (rowOf (n := 5000) H p) := congrArg (fun s => Ideal.div s c128) (sumCol1_apply H p)
  exact congrArg (fun z => H (ix2 p q) - z) (hb.trans hs)

/-- The reciprocal square roots of the rows' variances plus the constant, as a column. -/
def invStd1 (H : FVec Ideal S5000x128 .f32) : FVec Ideal S5000x1 .f32 :=
  rsqrt (addf (divf (sumCol1 (mulf (centred1 H) (centred1 H))) (broadcast S5000x1 (Scalar.ofBits .f32 0x43000000#32)))
    (broadcast S5000x1 (Scalar.ofBits .f32 0x3727C5AC#32)))

/-- That column at row `p`. -/
theorem invStd1_apply (H : FVec Ideal S5000x128 .f32) (p : Fin 5000) :
    invStd1 H (ix2 p (0 : Fin 1)) = Ideal.rsqrt (rowVar (rowOf (n := 5000) H p) + epsv) := by
  unfold invStd1
  have hs : sumCol1 (mulf (centred1 H) (centred1 H)) (ix2 p (0 : Fin 1))
      = ∑ k : Fin 128, (rowOf (n := 5000) H p k - rowMean (rowOf (n := 5000) H p))
          * (rowOf (n := 5000) H p k - rowMean (rowOf (n := 5000) H p)) :=
    (sumCol1_apply _ p).trans (Finset.sum_congr rfl fun k _ => congrArg₂ (· * ·) (centred1_apply H p k) (centred1_apply H p k))
  exact congrArg (fun s => Ideal.rsqrt (Ideal.div s c128 + epsv)) hs

/-- The second stored block before its offset, as the centred block times the column of reciprocal roots times the
    gain row. -/
theorem pay_norm1_eq (m : Vec Ideal S5000x128 .f32) (Wl : Vec Ideal S128x128 .f32) (h : Vec Ideal S5000x128 .f32)
    (Wr : Vec Ideal S128x128 .f32) (bl : Vec Ideal S1x128 .f32) (g : Vec Ideal S1x128 .f32) :
    k1_pay3 (F := Ideal) m Wl h Wr bl g
      = mulf (mulf (centred1 (k1_pay2 (F := Ideal) m Wl h Wr bl))
            (broadcastTo S5000x128 (invStd1 (k1_pay2 (F := Ideal) m Wl h Wr bl)) broadcasts_S5000x1_S5000x128))
          (broadcastTo S5000x128 (shapeCast S1x128 g shapeCasts_S1x128_S1x128) broadcasts_S1x128_S5000x128) := rfl

/-- Entry `(p, q)` of that block: the normalised row of the convolution's block times the gain. -/
theorem pay_norm1_apply (m : Vec Ideal S5000x128 .f32) (Wl : Vec Ideal S128x128 .f32) (h : Vec Ideal S5000x128 .f32)
    (Wr : Vec Ideal S128x128 .f32) (bl : Vec Ideal S1x128 .f32) (g : Vec Ideal S1x128 .f32) (p : Fin 5000) (q : Fin 128) :
    k1_pay3 (F := Ideal) m Wl h Wr bl g (ix2 p q)
      = normRow (rowOf (n := 5000) (convArr (n := 5000) m h Wl (rowOf (n := 1) bl 0) Wr) p) q * rowOf (n := 1) g 0 q := by
  rw [pay_norm1_eq, pay_conv1, shapeCast_self]
  have e1 := centred1_apply (convArr (n := 5000) m h Wl (rowOf (n := 1) bl 0) Wr) p q
  have e2 := (broadcastTo_a1_ab_apply (invStd1 (convArr (n := 5000) m h Wl (rowOf (n := 1) bl 0) Wr))
    broadcasts_S5000x1_S5000x128 p q).trans (invStd1_apply _ p)
  have e3 := broadcastTo_1b_ab_apply (a := 5000) g broadcasts_S1x128_S5000x128 p q
  exact congrArg₂ (· * ·) (congrArg₂ (· * ·) e1 e2) e3

/-- The second stored block, entry by entry: the activated rows of the convolution's block. -/
theorem pay_act1 (m : Vec Ideal S5000x128 .f32) (Wl : Vec Ideal S128x128 .f32) (h : Vec Ideal S5000x128 .f32)
    (Wr : Vec Ideal S128x128 .f32) (bl : Vec Ideal S1x128 .f32) (g : Vec Ideal S1x128 .f32) (be : Vec Ideal S1x128 .f32) :
    k1_pay1 (F := Ideal) (k1_pay3 (F := Ideal) m Wl h Wr bl g) be
      = actArr (n := 5000) (convArr (n := 5000) m h Wl (rowOf (n := 1) bl 0) Wr) (rowOf (n := 1) g 0) (rowOf (n := 1) be 0) := by
  funext j
  obtain ⟨p, q, rfl⟩ : ∃ (p : Fin 5000) (q : Fin 128), j = ix2 p q := ⟨j 0, j 1, eq_ix2 j⟩
  unfold k1_pay1
  rw [shapeCast_self]
  have e := pay_norm1_apply m Wl h Wr bl g p q
  have hb := broadcastTo_1b_ab_apply (a := 5000) be broadcasts_S1x128_S5000x128 p q
  exact congrArg (fun z => max z zerov) (congrArg₂ (· + ·) e hb)

/-! ## The windows' blocks -/

variable (V : (c : Dev nD) → (b : Ref sig .tc) → Buf (Elt Ideal) ((c : Thread nD τ).loc b))

/-- The windows' block indices over the grid: the row windows move with the point, the others stay. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- The aggregated rows' block at point `t`, at its literal type. -/
abbrev mb1 (c : Dev nD) (t : Fin cfg1.N) : Vec Ideal S5000x128 .f32 := iblk1 V c 0 t
/-- The nodes' own rows' block. -/
abbrev hb1 (c : Dev nD) (t : Fin cfg1.N) : Vec Ideal S5000x128 .f32 := iblk1 V c 1 t
/-- The first matrix's window's block. -/
abbrev wlb1 (c : Dev nD) (t : Fin cfg1.N) : Vec Ideal S128x128 .f32 := iblk1 V c 2 t
/-- The bias window's block. -/
abbrev blb1 (c : Dev nD) (t : Fin cfg1.N) : Vec Ideal S1x128 .f32 := iblk1 V c 3 t
/-- The second matrix's window's block. -/
abbrev wrb1 (c : Dev nD) (t : Fin cfg1.N) : Vec Ideal S128x128 .f32 := iblk1 V c 4 t
/-- The gain window's block. -/
abbrev gb1 (c : Dev nD) (t : Fin cfg1.N) : Vec Ideal S1x128 .f32 := iblk1 V c 5 t
/-- The offset window's block. -/
abbrev beb1 (c : Dev nD) (t : Fin cfg1.N) : Vec Ideal S1x128 .f32 := iblk1 V c 6 t

/-- Row `p` of the aggregated rows' block at point `t` is row `5000 t + p` of the array. -/
theorem mb1_apply (c : Dev nD) (t : Fin cfg1.N) (p : Fin 5000) (k : Fin 128) (i : S50000x128.Idx)
    (h0 : (i 0).val = t.val * 5000 + p.val) (h1 : (i 1).val = k.val) :
    mb1 V c t (ix2 p k) = (V c main_v29 : S50000x128.Idx → EReal) i := by
  obtain ⟨e0, e1, -⟩ := idx1 t
  unfold mb1 iblk1
  rw [View.read_apply]
  show (V c main_v29 : S50000x128.Idx → EReal) _ = _
  refine congrArg _ (funext fun a => Fin.ext ?_)
  match a with
  | ⟨0, _⟩ => show win1_0.index t (0 : Fin 2) * 5000 + 1 * p.val = (i 0).val; omega
  | ⟨1, _⟩ => show win1_0.index t (1 : Fin 2) * 128 + 1 * k.val = (i 1).val; omega

/-- Row `p` of the nodes' own rows' block at point `t` is row `5000 t + p` of the array. -/
theorem hb1_apply (c : Dev nD) (t : Fin cfg1.N) (p : Fin 5000) (k : Fin 128) (i : S50000x128.Idx)
    (h0 : (i 0).val = t.val * 5000 + p.val) (h1 : (i 1).val = k.val) :
    hb1 V c t (ix2 p k) = (V c main_v17 : S50000x128.Idx → EReal) i := by
  obtain ⟨-, -, e0, e1, -⟩ := idx1 t
  unfold hb1 iblk1
  rw [View.read_apply]
  show (V c main_v17 : S50000x128.Idx → EReal) _ = _
  refine congrArg _ (funext fun a => Fin.ext ?_)
  match a with
  | ⟨0, _⟩ => show win1_1.index t (0 : Fin 2) * 5000 + 1 * p.val = (i 0).val; omega
  | ⟨1, _⟩ => show win1_1.index t (1 : Fin 2) * 128 + 1 * k.val = (i 1).val; omega

/-- The first matrix's window's block is the whole matrix. -/
theorem wlb1_eq (c : Dev nD) (t : Fin cfg1.N) : wlb1 V c t = (V c main_arg5 : S128x128.Idx → EReal) := by
  obtain ⟨-, -, -, -, e0, e1, -⟩ := idx1 t
  funext y
  unfold wlb1 iblk1
  rw [View.read_apply]
  show (V c main_arg5 : S128x128.Idx → EReal) _ = _
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The bias window's block is the whole bias row. -/
theorem blb1_eq (c : Dev nD) (t : Fin cfg1.N) : blb1 V c t = (V c main_v13 : S1x128.Idx → EReal) := by
  obtain ⟨-, -, -, -, -, -, e0, e1, -⟩ := idx1 t
  funext y
  unfold blb1 iblk1
  rw [View.read_apply]
  show (V c main_v13 : S1x128.Idx → EReal) _ = _
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The second matrix's window's block is the whole matrix. -/
theorem wrb1_eq (c : Dev nD) (t : Fin cfg1.N) : wrb1 V c t = (V c main_arg7 : S128x128.Idx → EReal) := by
  obtain ⟨-, -, -, -, -, -, -, -, e0, e1, -⟩ := idx1 t
  funext y
  unfold wrb1 iblk1
  rw [View.read_apply]
  show (V c main_arg7 : S128x128.Idx → EReal) _ = _
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The gain window's block is the whole gain row. -/
theorem gb1_eq (c : Dev nD) (t : Fin cfg1.N) : gb1 V c t = (V c main_v14 : S1x128.Idx → EReal) := by
  obtain ⟨-, -, -, -, -, -, -, -, -, -, e0, e1, -⟩ := idx1 t
  funext y
  unfold gb1 iblk1
  rw [View.read_apply]
  show (V c main_v14 : S1x128.Idx → EReal) _ = _
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- The offset window's block is the whole offset row. -/
theorem beb1_eq (c : Dev nD) (t : Fin cfg1.N) : beb1 V c t = (V c main_v15 : S1x128.Idx → EReal) := by
  obtain ⟨-, -, -, -, -, -, -, -, -, -, -, -, e0, e1, -⟩ := idx1 t
  funext y
  unfold beb1 iblk1
  rw [View.read_apply]
  show (V c main_v15 : S1x128.Idx → EReal) _ = _
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-! ## What each point writes back, and the arrays after the run -/

/-- What point `t` writes back to the first output is block `t` of the convolution's rows of the arrays as the call
    finds them. -/
theorem flushed1_h (c : Dev nD) (t : Fin cfg1.N) :
    (dat1 V c).flushed 7 t = ((cfg1.win 7).blk t).view.read (Elt Ideal)
      (convArr (n := 50000) (V c main_v29) (V c main_v17) (V c main_arg5) (rowOf (n := 1) (V c main_v13) 0) (V c main_arg7)) := by
  show (cfg1.win 7).cut (grid1.coords t) ((dat1 V c).after 7 t) = _
  rw [after1_7]
  unfold out1_7
  rw [View.canon_unit_zero hz2_1]
  simp only [View.ld_unit_zero (S := S5000x128) hz2_1, View.ld_unit_zero (S := S128x128) hz2_1, View.ld_unit_zero (S := S1x128) hz2_1]
  show (win1 7).cut (grid1.coords t) (k1_pay2 (mb1 V c t) (wlb1 V c t) (hb1 V c t) (wrb1 V c t) (blb1 V c t)) = _
  rw [pay_conv1, wlb1_eq, blb1_eq, wrb1_eq]
  obtain ⟨-, -, -, -, -, -, -, -, -, -, -, -, -, -, e0, e1, -⟩ := idx1 t
  funext y
  rw [View.read_apply]
  have hc1 : (((cfg1.win 7).blk t).view.emb y) 1 = (⟨(y 1).val, (y 1).isLt⟩ : Fin 128) :=
    Fin.ext (by show win1_7.index t (1 : Fin 2) * 128 + 1 * (y 1).val = (y 1).val; omega)
  have hrowm : rowOf (n := 5000) (mb1 V c t) ⟨(y 0).val, (y 0).isLt⟩
      = rowOf (n := 50000) (V c main_v29) ((((cfg1.win 7).blk t).view.emb y) 0) :=
    funext fun k => mb1_apply V c t ⟨(y 0).val, (y 0).isLt⟩ k _
      (by show win1_7.index t (0 : Fin 2) * 5000 + 1 * (y 0).val = t.val * 5000 + (y 0).val; omega) rfl
  have hrowh : rowOf (n := 5000) (hb1 V c t) ⟨(y 0).val, (y 0).isLt⟩
      = rowOf (n := 50000) (V c main_v17) ((((cfg1.win 7).blk t).view.emb y) 0) :=
    funext fun k => hb1_apply V c t ⟨(y 0).val, (y 0).isLt⟩ k _
      (by show win1_7.index t (0 : Fin 2) * 5000 + 1 * (y 0).val = t.val * 5000 + (y 0).val; omega) rfl
  show convRow (rowOf (n := 5000) (mb1 V c t) ⟨(y 0).val, (y 0).isLt⟩) (rowOf (n := 5000) (hb1 V c t) ⟨(y 0).val, (y 0).isLt⟩)
      (V c main_arg5) (rowOf (n := 1) (V c main_v13) 0) (V c main_arg7) (⟨(y 1).val, (y 1).isLt⟩ : Fin 128)
    = convRow (rowOf (n := 50000) (V c main_v29) ((((cfg1.win 7).blk t).view.emb y) 0))
      (rowOf (n := 50000) (V c main_v17) ((((cfg1.win 7).blk t).view.emb y) 0))
      (V c main_arg5) (rowOf (n := 1) (V c main_v13) 0) (V c main_arg7) ((((cfg1.win 7).blk t).view.emb y) 1)
  rw [hrowm, hrowh, hc1]

/-- What point `t` writes back to the second output is block `t` of the activated rows of the convolution of the arrays
    as the call finds them. -/
theorem flushed1_r (c : Dev nD) (t : Fin cfg1.N) :
    (dat1 V c).flushed 8 t = ((cfg1.win 8).blk t).view.read (Elt Ideal)
      (actArr (n := 50000) (convArr (n := 50000) (V c main_v29) (V c main_v17) (V c main_arg5) (rowOf (n := 1) (V c main_v13) 0) (V c main_arg7))
        (rowOf (n := 1) (V c main_v14) 0) (rowOf (n := 1) (V c main_v15) 0)) := by
  show (cfg1.win 8).cut (grid1.coords t) ((dat1 V c).after 8 t) = _
  rw [after1_8]
  unfold out1_8
  rw [View.canon_unit_zero hz2_1]
  simp only [View.ld_unit_zero (S := S5000x128) hz2_1, View.ld_unit_zero (S := S128x128) hz2_1, View.ld_unit_zero (S := S1x128) hz2_1]
  show (win1 8).cut (grid1.coords t)
    (k1_pay1 (k1_pay3 (mb1 V c t) (wlb1 V c t) (hb1 V c t) (wrb1 V c t) (blb1 V c t) (gb1 V c t)) (beb1 V c t)) = _
  rw [pay_act1, wlb1_eq, blb1_eq, wrb1_eq, gb1_eq, beb1_eq]
  obtain ⟨-, -, -, -, -, -, -, -, -, -, -, -, -, -, -, -, e0, e1⟩ := idx1 t
  funext y
  rw [View.read_apply]
  have hc1 : (((cfg1.win 8).blk t).view.emb y) 1 = (⟨(y 1).val, (y 1).isLt⟩ : Fin 128) :=
    Fin.ext (by show win1_8.index t (1 : Fin 2) * 128 + 1 * (y 1).val = (y 1).val; omega)
  have hrowm : rowOf (n := 5000) (mb1 V c t) ⟨(y 0).val, (y 0).isLt⟩
      = rowOf (n := 50000) (V c main_v29) ((((cfg1.win 8).blk t).view.emb y) 0) :=
    funext fun k => mb1_apply V c t ⟨(y 0).val, (y 0).isLt⟩ k _
      (by show win1_8.index t (0 : Fin 2) * 5000 + 1 * (y 0).val = t.val * 5000 + (y 0).val; omega) rfl
  have hrowh : rowOf (n := 5000) (hb1 V c t) ⟨(y 0).val, (y 0).isLt⟩
      = rowOf (n := 50000) (V c main_v17) ((((cfg1.win 8).blk t).view.emb y) 0) :=
    funext fun k => hb1_apply V c t ⟨(y 0).val, (y 0).isLt⟩ k _
      (by show win1_8.index t (0 : Fin 2) * 5000 + 1 * (y 0).val = t.val * 5000 + (y 0).val; omega) rfl
  show actRow (convRow (rowOf (n := 5000) (mb1 V c t) ⟨(y 0).val, (y 0).isLt⟩) (rowOf (n := 5000) (hb1 V c t) ⟨(y 0).val, (y 0).isLt⟩)
        (V c main_arg5) (rowOf (n := 1) (V c main_v13) 0) (V c main_arg7))
      (rowOf (n := 1) (V c main_v14) 0) (rowOf (n := 1) (V c main_v15) 0) (⟨(y 1).val, (y 1).isLt⟩ : Fin 128)
    = actRow (convRow (rowOf (n := 50000) (V c main_v29) ((((cfg1.win 8).blk t).view.emb y) 0))
        (rowOf (n := 50000) (V c main_v17) ((((cfg1.win 8).blk t).view.emb y) 0))
        (V c main_arg5) (rowOf (n := 1) (V c main_v13) 0) (V c main_arg7))
      (rowOf (n := 1) (V c main_v14) 0) (rowOf (n := 1) (V c main_v15) 0) ((((cfg1.win 8).blk t).view.emb y) 1)
  rw [hrowm, hrowh, hc1]

/-- The ten blocks of the first output tile its array, so after the run it holds the convolution's rows of the arrays as
    the call finds them. -/
theorem final1_h (c : Dev nD) : (dat1 V c).arrAt 7 cfg1.N
      = convArr (n := 50000) (V c main_v29) (V c main_v17) (V c main_arg5) (rowOf (n := 1) (V c main_v13) 0) (V c main_arg7) :=
  (dat1 V c).arrAt_eq_of_cover 7 _ (fun t _ => flushed1_h V c t) fun i => by
    have hi0 : (i 0).val < 50000 := (i 0).isLt
    have hi1 : (i 1).val < 128 := (i 1).isLt
    have hN : cfg1.N = 10 := N_1
    have ht : (i 0).val / 5000 < cfg1.N := by rw [hN]; omega
    obtain ⟨-, -, -, -, -, -, -, -, -, -, -, -, -, -, e0, e1, -⟩ := idx1 ⟨(i 0).val / 5000, ht⟩
    refine ⟨⟨(i 0).val / 5000, ht⟩, flush1_7 _, ?_⟩
    show i ∈ ((View.whole main_v30_0).slice (win1_7.rect ⟨(i 0).val / 5000, ht⟩)).set
    rw [View.set_slice_whole, Rect.mem_set_unit]
    intro a
    match a with
    | ⟨0, _⟩ =>
      show win1_7.index ⟨(i 0).val / 5000, ht⟩ (0 : Fin 2) * 5000 ≤ (i 0).val
        ∧ (i 0).val < win1_7.index ⟨(i 0).val / 5000, ht⟩ (0 : Fin 2) * 5000 + 5000
      rw [e0]; show (i 0).val / 5000 * 5000 ≤ (i 0).val ∧ (i 0).val < (i 0).val / 5000 * 5000 + 5000; omega
    | ⟨1, _⟩ =>
      show win1_7.index ⟨(i 0).val / 5000, ht⟩ (1 : Fin 2) * 128 ≤ (i 1).val
        ∧ (i 1).val < win1_7.index ⟨(i 0).val / 5000, ht⟩ (1 : Fin 2) * 128 + 128
      rw [e1]; omega

/-- The ten blocks of the second output tile its array, so after the run it holds the activated rows of that
    convolution. -/
theorem final1_r (c : Dev nD) : (dat1 V c).arrAt 8 cfg1.N
      = actArr (n := 50000) (convArr (n := 50000) (V c main_v29) (V c main_v17) (V c main_arg5) (rowOf (n := 1) (V c main_v13) 0) (V c main_arg7))
          (rowOf (n := 1) (V c main_v14) 0) (rowOf (n := 1) (V c main_v15) 0) :=
  (dat1 V c).arrAt_eq_of_cover 8 _ (fun t _ => flushed1_r V c t) fun i => by
    have hi0 : (i 0).val < 50000 := (i 0).isLt
    have hi1 : (i 1).val < 128 := (i 1).isLt
    have hN : cfg1.N = 10 := N_1
    have ht : (i 0).val / 5000 < cfg1.N := by rw [hN]; omega
    obtain ⟨-, -, -, -, -, -, -, -, -, -, -, -, -, -, -, -, e0, e1⟩ := idx1 ⟨(i 0).val / 5000, ht⟩
    refine ⟨⟨(i 0).val / 5000, ht⟩, flush1_8 _, ?_⟩
    show i ∈ ((View.whole main_v30_1).slice (win1_8.rect ⟨(i 0).val / 5000, ht⟩)).set
    rw [View.set_slice_whole, Rect.mem_set_unit]
    intro a
    match a with
    | ⟨0, _⟩ =>
      show win1_8.index ⟨(i 0).val / 5000, ht⟩ (0 : Fin 2) * 5000 ≤ (i 0).val
        ∧ (i 0).val < win1_8.index ⟨(i 0).val / 5000, ht⟩ (0 : Fin 2) * 5000 + 5000
      rw [e0]; show (i 0).val / 5000 * 5000 ≤ (i 0).val ∧ (i 0).val < (i 0).val / 5000 * 5000 + 5000; omega
    | ⟨1, _⟩ =>
      show win1_8.index ⟨(i 0).val / 5000, ht⟩ (1 : Fin 2) * 128 ≤ (i 1).val
        ∧ (i 1).val < win1_8.index ⟨(i 0).val / 5000, ht⟩ (1 : Fin 2) * 128 + 128
      rw [e1]; omega

end Cert.KernelIdeal.Hand

end
-- ==== Proof.Region2.lean ====
/-
  The second convolution's call: what its output array holds after the run, for any contents the call is entered with.

  At a grid point the body forms, for its block of 5000 rows, the convolution of the aggregated rows and the activated
  rows plus the first convolution's rows; takes each row's mean and variance by sums over the row, and normalises the
  row; applies the gain and the offset, clips below at zero, and stores the rows' affine images under the output
  matrix and bias.  Read at an entry, a product on the matrix unit into a zero accumulator is the sum over the
  contracted index, a row operand is broadcast over the rows and a column over the entries of each row.  So the stored
  block is the row-wise output map of the operands' blocks of rows; block `t` of a row operand is rows `5000 t …` of
  its array, the matrix and row windows are their whole arrays, and the ten output blocks tile the output array.
-/
import proofs.«130707_j87376814670104_1_alg».proof.Proof.Gen.KernelIdeal.Frame
import proofs.«130707_j87376814670104_1_alg».proof.Proof.Spec
import proofs.«130707_j87376814670104_1_alg».proof.Proof.LibPlainMatmul
import Idealize.ShloMosaic.Lib.Pipeline.Value
import Idealize.ShloMosaic.Lib.ValueLayout

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen Cert.Sage Cert.Gnn

namespace R2

/-- The sum over the second axis of a block, as a column, at row `p`: the sum of the row's entries. -/
theorem laneSum_apply (H : FVec Ideal S5000x128 .f32) (p : Fin 5000) :
    shapeCast S5000x1 (multiReduction .add [1] S5000 H 0x00000000#32 reduces_S5000x128_S5000 (.inl rfl) rfl)
        shapeCasts_S5000_S5000x1 (ix2 p (0 : Fin 1))
      = ∑ k : Fin 128, H (ix2 p k) := by
  refine (shapeCast_apply _ _ (ix2 p (0 : Fin 1)) (ix1 p) ?_).trans ?_
  · rw [Shape.rowMajor_val_two, Shape.rowMajor_val_one]
    show p.val = p.val * 1 + 0
    omega
  · refine (Ideal.multiReduction_add_single H _ reduces_S5000x128_S5000 (.inl rfl) rfl (ix1 p)).trans ?_
    refine Finset.sum_congr rfl fun k _ => congrArg H (funext fun a => ?_)
    match a with
    | ⟨0, _⟩ => rfl
    | ⟨1, _⟩ => rfl

/-- The column of row means of a block. -/
def meanCol (H : FVec Ideal S5000x128 .f32) : FVec Ideal S5000x1 .f32 :=
  divf (shapeCast S5000x1 (multiReduction .add [1] S5000 H 0x00000000#32 reduces_S5000x128_S5000 (.inl rfl) rfl)
    shapeCasts_S5000_S5000x1) (broadcast S5000x1 (Scalar.ofBits .f32 0x43000000#32))

theorem meanCol_apply (H : FVec Ideal S5000x128 .f32) (p : Fin 5000) :
    meanCol H (ix2 p (0 : Fin 1)) = rowMean (rowOf (n := 5000) H p) :=
  congrArg (fun s => Ideal.div s c128) (laneSum_apply H p)

/-- The block with each row's mean taken off. -/
def cenBlk (H : FVec Ideal S5000x128 .f32) : FVec Ideal S5000x128 .f32 :=
  subf H (broadcastTo S5000x128 (meanCol H) broadcasts_S5000x1_S5000x128)

theorem cenBlk_apply (H : FVec Ideal S5000x128 .f32) (p : Fin 5000) (q : Fin 128) :
    cenBlk H (ix2 p q) = H (ix2 p q) - rowMean (rowOf (n := 5000) H p) :=
  congrArg (fun s => H (ix2 p q) - s)
    ((broadcastTo_a1_ab_apply (meanCol H) broadcasts_S5000x1_S5000x128 p q).trans (meanCol_apply H p))

/-- The column of row variances of a block. -/
def varCol (H : FVec Ideal S5000x128 .f32) : FVec Ideal S5000x1 .f32 :=
  divf (shapeCast S5000x1 (multiReduction .add [1] S5000 (mulf (cenBlk H) (cenBlk H)) 0x00000000#32
    reduces_S5000x128_S5000 (.inl rfl) rfl) shapeCasts_S5000_S5000x1) (broadcast S5000x1 (Scalar.ofBits .f32 0x43000000#32))

theorem varCol_apply (H : FVec Ideal S5000x128 .f32) (p : Fin 5000) :
    varCol H (ix2 p (0 : Fin 1)) = rowVar (rowOf (n := 5000) H p) :=
  congrArg (fun s => Ideal.div s c128)
    ((laneSum_apply (mulf (cenBlk H) (cenBlk H)) p).trans
      (Finset.sum_congr rfl fun k _ => congrArg₂ (· * ·) (cenBlk_apply H p k) (cenBlk_apply H p k)))

/-- The column of reciprocal square roots of the rows' variances plus the constant. -/
def rsCol (H : FVec Ideal S5000x128 .f32) : FVec Ideal S5000x1 .f32 :=
  rsqrt (addf (varCol H) (broadcast S5000x1 (Scalar.ofBits .f32 0x3727C5AC#32)))

theorem rsCol_apply (H : FVec Ideal S5000x128 .f32) (p : Fin 5000) :
    rsCol H (ix2 p (0 : Fin 1)) = Ideal.rsqrt (rowVar (rowOf (n := 5000) H p) + epsv) :=
  congrArg (fun s => Ideal.rsqrt (s + epsv)) (varCol_apply H p)

/-- The block of normalised rows. -/
def normBlk (H : FVec Ideal S5000x128 .f32) : FVec Ideal S5000x128 .f32 :=
  mulf (cenBlk H) (broadcastTo S5000x128 (rsCol H) broadcasts_S5000x1_S5000x128)

theorem normBlk_apply (H : FVec Ideal S5000x128 .f32) (p : Fin 5000) (q : Fin 128) :
    normBlk H (ix2 p q) = normRow (rowOf (n := 5000) H p) q :=
  congrArg₂ (· * ·) (cenBlk_apply H p q)
    ((broadcastTo_a1_ab_apply (rsCol H) broadcasts_S5000x1_S5000x128 p q).trans (rsCol_apply H p))

/-- The second convolution's block with its residual, as the body computes it. -/
def resBlk (m : Vec Ideal S5000x128 .f32) (Wl : Vec Ideal S128x128 .f32) (r : Vec Ideal S5000x128 .f32)
    (Wr : Vec Ideal S128x128 .f32) (bl : Vec Ideal S1x128 .f32) (h1 : Vec Ideal S5000x128 .f32) : FVec Ideal S5000x128 .f32 :=
  addf (addf (addf
    (matmul dot_S5000x128_S128x128_S5000x128_1_0_0_1_n_n none (truncf .bf16 m bitsLt_bf16_f32) (truncf .bf16 Wl bitsLt_bf16_f32)
      (constant S5000x128 .f32 0x00000000#32))
    (broadcastTo S5000x128 bl broadcasts_S1x128_S5000x128))
    (matmul dot_S5000x128_S128x128_S5000x128_1_0_0_1_n_n none (truncf .bf16 r bitsLt_bf16_f32) (truncf .bf16 Wr bitsLt_bf16_f32)
      (constant S5000x128 .f32 0x00000000#32)))
    h1

theorem resBlk_eq (m : Vec Ideal S5000x128 .f32) (Wl : Vec Ideal S128x128 .f32) (r : Vec Ideal S5000x128 .f32)
    (Wr : Vec Ideal S128x128 .f32) (bl : Vec Ideal S1x128 .f32) (h1 : Vec Ideal S5000x128 .f32) :
    resBlk m Wl r Wr bl h1 = resArr (n := 5000) m r h1 Wl (rowOf (n := 1) bl 0) Wr := by
  funext j
  obtain ⟨p, q, rfl⟩ : ∃ (p : Fin 5000) (q : Fin 128), j = ix2 p q := ⟨j 0, j 1, eq_ix2 j⟩
  have hm1 := plain_matmul_apply 5000 128 128 none (truncf .bf16 m bitsLt_bf16_f32) (truncf .bf16 Wl bitsLt_bf16_f32) (ix2 p q)
  have hm2 := plain_matmul_apply 5000 128 128 none (truncf .bf16 r bitsLt_bf16_f32) (truncf .bf16 Wr bitsLt_bf16_f32) (ix2 p q)
  have hb := broadcastTo_1b_ab_apply (a := 5000) bl broadcasts_S1x128_S5000x128 p q
  exact congrArg₂ (· + ·) (congrArg₂ (· + ·) (congrArg₂ (· + ·) hm1 hb) hm2) rfl

/-- The body's first value is the block of normalised rows of the convolution with its residual. -/
theorem pay2_eq (m : Vec Ideal S5000x128 .f32) (Wl : Vec Ideal S128x128 .f32) (r : Vec Ideal S5000x128 .f32)
    (Wr : Vec Ideal S128x128 .f32) (bl : Vec Ideal S1x128 .f32) (h1 : Vec Ideal S5000x128 .f32) :
    k2_pay2 (F := Ideal) m Wl r Wr bl h1 = normBlk (resBlk m Wl r Wr bl h1) := by
  unfold k2_pay2 normBlk cenBlk rsCol varCol cenBlk meanCol resBlk
  simp only [shapeCast_self]

/-- The body's stored block at an entry, from a block `N`: the rows of `N` under the gain and the offset, clipped
    below at zero, through the output's affine map. -/
theorem pay1_apply (N : FVec Ideal S5000x128 .f32) (g be : Vec Ideal S1x128 .f32) (Wo : Vec Ideal S128x64 .f32)
    (bo : Vec Ideal S1x64 .f32) (p : Fin 5000) (q : Fin 64) :
    k2_pay1 (F := Ideal) N g be Wo bo (ix2 p q)
      = affRow (fun k => max (N (ix2 p k) * rowOf (n := 1) g 0 k + rowOf (n := 1) be 0 k) zerov) Wo (rowOf (n := 1) bo 0) q := by
  unfold k2_pay1
  simp only [shapeCast_self]
  have hm := plain_matmul_apply 5000 128 64 none
    (truncf .bf16 (maximumf (addf (mulf N (broadcastTo S5000x128 g broadcasts_S1x128_S5000x128))
      (broadcastTo S5000x128 be broadcasts_S1x128_S5000x128)) (broadcast S5000x128 (Scalar.ofBits .f32 0x00000000#32))) bitsLt_bf16_f32)
    (truncf .bf16 Wo bitsLt_bf16_f32) (ix2 p q)
  have hb := broadcastTo_1b_ab_apply (a := 5000) bo broadcasts_S1x64_S5000x64 p q
  refine (congrArg₂ (· + ·) hm hb).trans ?_
  refine congrArg (fun s => s + rowOf (n := 1) bo 0 q) (Finset.sum_congr rfl fun k _ => ?_)
  refine congrArg (fun s => s * Wo (ix2 k q)) ?_
  have hg := broadcastTo_1b_ab_apply (a := 5000) g broadcasts_S1x128_S5000x128 p k
  have hbe := broadcastTo_1b_ab_apply (a := 5000) be broadcasts_S1x128_S5000x128 p k
  exact congrArg (fun s => max s zerov) (congrArg₂ (· + ·) (congrArg (fun s => N (ix2 p k) * s) hg) hbe)

/-- The body's stored block: the output rows of the block of rows of the convolution with its residual. -/
theorem pay_out (m : Vec Ideal S5000x128 .f32) (Wl : Vec Ideal S128x128 .f32) (r : Vec Ideal S5000x128 .f32)
    (Wr : Vec Ideal S128x128 .f32) (bl : Vec Ideal S1x128 .f32) (h1 : Vec Ideal S5000x128 .f32)
    (g be : Vec Ideal S1x128 .f32) (Wo : Vec Ideal S128x64 .f32) (bo : Vec Ideal S1x64 .f32) :
    k2_pay1 (F := Ideal) (k2_pay2 (F := Ideal) m Wl r Wr bl h1) g be Wo bo
      = outArr (n := 5000) (resArr (n := 5000) m r h1 Wl (rowOf (n := 1) bl 0) Wr)
          (rowOf (n := 1) g 0) (rowOf (n := 1) be 0) Wo (rowOf (n := 1) bo 0) := by
  funext j
  obtain ⟨p, q, rfl⟩ : ∃ (p : Fin 5000) (q : Fin 64), j = ix2 p q := ⟨j 0, j 1, eq_ix2 j⟩
  rw [pay2_eq, pay1_apply, resBlk_eq]
  refine congrArg (fun x => affRow x Wo (rowOf (n := 1) bo 0) q) (funext fun k => ?_)
  exact congrArg (fun s => max (s * rowOf (n := 1) g 0 k + rowOf (n := 1) be 0 k) zerov) (normBlk_apply _ p k)

variable (V : (c : Dev nD) → (b : Ref sig .tc) → Buf (Elt Ideal) ((c : Thread nD τ).loc b))

theorem hz2' : (![0, 0] : Fin 2 → Nat) = fun _ => 0 := funext fun a => by fin_cases a <;> rfl

/-- The row windows' block indices over the grid: they move with the point. -/
theorem idx2r : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_10.index t (0 : Fin 2) = t.val ∧ win2_10.index t (1 : Fin 2) = 0 :=
  (by decide +kernel : ∀ t : Fin grid2.N, _)

/-- The matrix and row windows' block indices over the grid: they stay. -/
theorem idx2w : ∀ t : Fin cfg2.N,
    win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0 :=
  (by decide +kernel : ∀ t : Fin grid2.N, _)

/-- The aggregated rows' block at point `t`, at its literal type. -/
abbrev mb2 (c : Dev nD) (t : Fin cfg2.N) : Vec Ideal S5000x128 .f32 := iblk2 V c 0 t

/-- Row `p` of that block is row `5000 t + p` of the array. -/
theorem mb2_apply (c : Dev nD) (t : Fin cfg2.N) (p : Fin 5000) (k : Fin 128) (i : S50000x128.Idx)
    (h0 : (i 0).val = t.val * 5000 + p.val) (h1 : (i 1).val = k.val) :
    mb2 V c t (ix2 p k) = (V c main_v42 : S50000x128.Idx → EReal) i := by
  have e0 : win2_0.index t (0 : Fin 2) = t.val := (idx2r t).1
  have e1 : win2_0.index t (1 : Fin 2) = 0 := (idx2r t).2.1
  unfold mb2 iblk2
  rw [View.read_apply]
  show (V c main_v42 : S50000x128.Idx → EReal) _ = _
  refine congrArg _ (funext fun a => Fin.ext ?_)
  match a with
  | ⟨0, _⟩ => show win2_0.index t (0 : Fin 2) * 5000 + 1 * p.val = (i 0).val; omega
  | ⟨1, _⟩ => show win2_0.index t (1 : Fin 2) * 128 + 1 * k.val = (i 1).val; omega

/-- The activated rows' block at point `t`. -/
abbrev rb2 (c : Dev nD) (t : Fin cfg2.N) : Vec Ideal S5000x128 .f32 := iblk2 V c 1 t

/-- Row `p` of that block is row `5000 t + p` of the array. -/
theorem rb2_apply (c : Dev nD) (t : Fin cfg2.N) (p : Fin 5000) (k : Fin 128) (i : S50000x128.Idx)
    (h0 : (i 0).val = t.val * 5000 + p.val) (h1 : (i 1).val = k.val) :
    rb2 V c t (ix2 p k) = (V c main_v30_1 : S50000x128.Idx → EReal) i := by
  have e0 : win2_1.index t (0 : Fin 2) = t.val := (idx2r t).2.2.1
  have e1 : win2_1.index t (1 : Fin 2) = 0 := (idx2r t).2.2.2.1
  unfold rb2 iblk2
  rw [View.read_apply]
  show (V c main_v30_1 : S50000x128.Idx → EReal) _ = _
  refine congrArg _ (funext fun a => Fin.ext ?_)
  match a with
  | ⟨0, _⟩ => show win2_1.index t (0 : Fin 2) * 5000 + 1 * p.val = (i 0).val; omega
  | ⟨1, _⟩ => show win2_1.index t (1 : Fin 2) * 128 + 1 * k.val = (i 1).val; omega

/-- The first convolution's rows' block at point `t`. -/
abbrev hb2 (c : Dev nD) (t : Fin cfg2.N) : Vec Ideal S5000x128 .f32 := iblk2 V c 2 t

/-- Row `p` of that block is row `5000 t + p` of the array. -/
theorem hb2_apply (c : Dev nD) (t : Fin cfg2.N) (p : Fin 5000) (k : Fin 128) (i : S50000x128.Idx)
    (h0 : (i 0).val = t.val * 5000 + p.val) (h1 : (i 1).val = k.val) :
    hb2 V c t (ix2 p k) = (V c main_v30_0 : S50000x128.Idx → EReal) i := by
  have e0 : win2_2.index t (0 : Fin 2) = t.val := (idx2r t).2.2.2.2.1
  have e1 : win2_2.index t (1 : Fin 2) = 0 := (idx2r t).2.2.2.2.2.1
  unfold hb2 iblk2
  rw [View.read_apply]
  show (V c main_v30_0 : S50000x128.Idx → EReal) _ = _
  refine congrArg _ (funext fun a => Fin.ext ?_)
  match a with
  | ⟨0, _⟩ => show win2_2.index t (0 : Fin 2) * 5000 + 1 * p.val = (i 0).val; omega
  | ⟨1, _⟩ => show win2_2.index t (1 : Fin 2) * 128 + 1 * k.val = (i 1).val; omega

/-- The first matrix window's block: the whole matrix. -/
abbrev wl2 (c : Dev nD) (t : Fin cfg2.N) : Vec Ideal S128x128 .f32 := iblk2 V c 3 t

theorem wl2_eq (c : Dev nD) (t : Fin cfg2.N) : wl2 V c t = (V c main_arg5 : S128x128.Idx → EReal) := by
  have e0 : win2_3.index t (0 : Fin 2) = 0 := (idx2w t).1
  have e1 : win2_3.index t (1 : Fin 2) = 0 := (idx2w t).2.1
  funext y
  unfold wl2 iblk2
  rw [View.read_apply]
  show (V c main_arg5 : S128x128.Idx → EReal) _ = _
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The convolution's bias window's block: the whole row. -/
abbrev bl2 (c : Dev nD) (t : Fin cfg2.N) : Vec Ideal S1x128 .f32 := iblk2 V c 4 t

theorem bl2_eq (c : Dev nD) (t : Fin cfg2.N) : bl2 V c t = (V c main_v13 : S1x128.Idx → EReal) := by
  have e0 : win2_4.index t (0 : Fin 2) = 0 := (idx2w t).2.2.1
  have e1 : win2_4.index t (1 : Fin 2) = 0 := (idx2w t).2.2.2.1
  funext y
  unfold bl2 iblk2
  rw [View.read_apply]
  show (V c main_v13 : S1x128.Idx → EReal) _ = _
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- The second matrix window's block: the whole matrix. -/
abbrev wr2 (c : Dev nD) (t : Fin cfg2.N) : Vec Ideal S128x128 .f32 := iblk2 V c 5 t

theorem wr2_eq (c : Dev nD) (t : Fin cfg2.N) : wr2 V c t = (V c main_arg7 : S128x128.Idx → EReal) := by
  have e0 : win2_5.index t (0 : Fin 2) = 0 := (idx2w t).2.2.2.2.1
  have e1 : win2_5.index t (1 : Fin 2) = 0 := (idx2w t).2.2.2.2.2.1
  funext y
  unfold wr2 iblk2
  rw [View.read_apply]
  show (V c main_arg7 : S128x128.Idx → EReal) _ = _
  refine congrArg _ (funext fun a => Fin.ext ?_)
  match a with
  | ⟨0, _⟩ => show win2_5.index t (0 : Fin 2) * 128 + 1 * (y 0).val = (y 0).val; omega
  | ⟨1, _⟩ => show win2_5.index t (1 : Fin 2) * 128 + 1 * (y 1).val = (y 1).val; omega

/-- The gain window's block: the whole row. -/
abbrev gb2 (c : Dev nD) (t : Fin cfg2.N) : Vec Ideal S1x128 .f32 := iblk2 V c 6 t

theorem gb2_eq (c : Dev nD) (t : Fin cfg2.N) : gb2 V c t = (V c main_v14 : S1x128.Idx → EReal) := by
  have e0 : win2_6.index t (0 : Fin 2) = 0 := (idx2w t).2.2.2.2.2.2.1
  have e1 : win2_6.index t (1 : Fin 2) = 0 := (idx2w t).2.2.2.2.2.2.2.1
  funext y
  unfold gb2 iblk2
  rw [View.read_apply]
  show (V c main_v14 : S1x128.Idx → EReal) _ = _
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 128 + 1 * (y 1).val = (y 1).val; omega

/-- The offset window's block: the whole row. -/
abbrev eb2 (c : Dev nD) (t : Fin cfg2.N) : Vec Ideal S1x128 .f32 := iblk2 V c 7 t

theorem eb2_eq (c : Dev nD) (t : Fin cfg2.N) : eb2 V c t = (V c main_v15 : S1x128.Idx → EReal) := by
  have e0 : win2_7.index t (0 : Fin 2) = 0 := (idx2w t).2.2.2.2.2.2.2.2.1
  have e1 : win2_7.index t (1 : Fin 2) = 0 := (idx2w t).2.2.2.2.2.2.2.2.2.1
  funext y
  unfold eb2 iblk2
  rw [View.read_apply]
  show (V c main_v15 : S1x128.Idx → EReal) _ = _
  refine congrArg _ (funext fun a => Fin.ext ?_)
  match a with
  | ⟨0, _⟩ => show win2_7.index t (0 : Fin 2) * 1 + 1 * (y 0).val = (y 0).val; omega
  | ⟨1, _⟩ => show win2_7.index t (1 : Fin 2) * 128 + 1 * (y 1).val = (y 1).val; omega

/-- The output matrix window's block: the whole matrix. -/
abbrev wo2 (c : Dev nD) (t : Fin cfg2.N) : Vec Ideal S128x64 .f32 := iblk2 V c 8 t

theorem wo2_eq (c : Dev nD) (t : Fin cfg2.N) : wo2 V c t = (V c main_arg10 : S128x64.Idx → EReal) := by
  have e0 : win2_8.index t (0 : Fin 2) = 0 := (idx2w t).2.2.2.2.2.2.2.2.2.2.1
  have e1 : win2_8.index t (1 : Fin 2) = 0 := (idx2w t).2.2.2.2.2.2.2.2.2.2.2.1
  funext y
  unfold wo2 iblk2
  rw [View.read_apply]
  show (V c main_arg10 : S128x64.Idx → EReal) _ = _
  refine congrArg _ (funext fun a => Fin.ext ?_)
  match a with
  | ⟨0, _⟩ => show win2_8.index t (0 : Fin 2) * 128 + 1 * (y 0).val = (y 0).val; omega
  | ⟨1, _⟩ => show win2_8.index t (1 : Fin 2) * 64 + 1 * (y 1).val = (y 1).val; omega

/-- The output bias window's block: the whole row. -/
abbrev bo2 (c : Dev nD) (t : Fin cfg2.N) : Vec Ideal S1x64 .f32 := iblk2 V c 9 t

theorem bo2_eq (c : Dev nD) (t : Fin cfg2.N) : bo2 V c t = (V c main_v16 : S1x64.Idx → EReal) := by
  have e0 : win2_9.index t (0 : Fin 2) = 0 := (idx2w t).2.2.2.2.2.2.2.2.2.2.2.2.1
  have e1 : win2_9.index t (1 : Fin 2) = 0 := (idx2w t).2.2.2.2.2.2.2.2.2.2.2.2.2
  funext y
  unfold bo2 iblk2
  rw [View.read_apply]
  show (V c main_v16 : S1x64.Idx → EReal) _ = _
  refine congrArg _ (funext fun a => Fin.ext ?_)
  match a with
  | ⟨0, _⟩ => show win2_9.index t (0 : Fin 2) * 1 + 1 * (y 0).val = (y 0).val; omega
  | ⟨1, _⟩ => show win2_9.index t (1 : Fin 2) * 64 + 1 * (y 1).val = (y 1).val; omega

/-- What point `t` writes back is block `t` of the output rows of the arrays as the call finds them. -/
theorem flushed2 (c : Dev nD) (t : Fin cfg2.N) :
    (dat2 V c).flushed 10 t = ((cfg2.win 10).blk t).view.read (Elt Ideal)
      (outArr (n := 50000) (resArr (n := 50000) (V c main_v42) (V c main_v30_1) (V c main_v30_0) (V c main_arg5) (rowOf (n := 1) (V c main_v13) 0) (V c main_arg7))
          (rowOf (n := 1) (V c main_v14) 0) (rowOf (n := 1) (V c main_v15) 0) (V c main_arg10) (rowOf (n := 1) (V c main_v16) 0)) := by
  show (cfg2.win 10).cut (grid2.coords t) ((dat2 V c).after 10 t) = _
  rw [after2_10]
  unfold out2_10
  rw [View.canon_unit_zero hz2']
  simp only [View.ld_unit_zero (S := S5000x128) hz2', View.ld_unit_zero (S := S128x128) hz2', View.ld_unit_zero (S := S1x128) hz2',
    View.ld_unit_zero (S := S128x64) hz2', View.ld_unit_zero (S := S1x64) hz2']
  show (win2 10).cut (grid2.coords t) (k2_pay1 (k2_pay2 (mb2 V c t) (wl2 V c t) (rb2 V c t) (wr2 V c t) (bl2 V c t) (hb2 V c t))
    (gb2 V c t) (eb2 V c t) (wo2 V c t) (bo2 V c t)) = _
  rw [pay_out, wl2_eq, bl2_eq, wr2_eq, gb2_eq, eb2_eq, wo2_eq, bo2_eq]
  have e0 : win2_10.index t (0 : Fin 2) = t.val := (idx2r t).2.2.2.2.2.2.1
  have e1 : win2_10.index t (1 : Fin 2) = 0 := (idx2r t).2.2.2.2.2.2.2
  funext y
  rw [View.read_apply]
  have hc1 : (((cfg2.win 10).blk t).view.emb y) 1 = (⟨(y 1).val, (y 1).isLt⟩ : Fin 64) :=
    Fin.ext (by show win2_10.index t (1 : Fin 2) * 64 + 1 * (y 1).val = (y 1).val; omega)
  have hi0 : ((((cfg2.win 10).blk t).view.emb y) 0).val = t.val * 5000 + (y 0).val := by
    show win2_10.index t (0 : Fin 2) * 5000 + 1 * (y 0).val = t.val * 5000 + (y 0).val; omega
  have hM : rowOf (n := 5000) (mb2 V c t) ⟨(y 0).val, (y 0).isLt⟩
      = rowOf (n := 50000) (V c main_v42) ((((cfg2.win 10).blk t).view.emb y) 0) :=
    funext fun k => mb2_apply V c t ⟨(y 0).val, (y 0).isLt⟩ k _ hi0 rfl
  have hR : rowOf (n := 5000) (rb2 V c t) ⟨(y 0).val, (y 0).isLt⟩
      = rowOf (n := 50000) (V c main_v30_1) ((((cfg2.win 10).blk t).view.emb y) 0) :=
    funext fun k => rb2_apply V c t ⟨(y 0).val, (y 0).isLt⟩ k _ hi0 rfl
  have hH : rowOf (n := 5000) (hb2 V c t) ⟨(y 0).val, (y 0).isLt⟩
      = rowOf (n := 50000) (V c main_v30_0) ((((cfg2.win 10).blk t).view.emb y) 0) :=
    funext fun k => hb2_apply V c t ⟨(y 0).val, (y 0).isLt⟩ k _ hi0 rfl
  have hres : rowOf (n := 5000) (resArr (n := 5000) (mb2 V c t) (rb2 V c t) (hb2 V c t) (V c main_arg5) (rowOf (n := 1) (V c main_v13) 0) (V c main_arg7)) ⟨(y 0).val, (y 0).isLt⟩
      = rowOf (n := 50000) (resArr (n := 50000) (V c main_v42) (V c main_v30_1) (V c main_v30_0) (V c main_arg5) (rowOf (n := 1) (V c main_v13) 0) (V c main_arg7)) ((((cfg2.win 10).blk t).view.emb y) 0) :=
    funext fun k => congrArg₂ (· + ·)
      (congrArg₂ (fun a b => convRow a b (V c main_arg5) (rowOf (n := 1) (V c main_v13) 0) (V c main_arg7) k) hM hR) (congrFun hH k)
  show affRow (actRow (rowOf (n := 5000) (resArr (n := 5000) (mb2 V c t) (rb2 V c t) (hb2 V c t) (V c main_arg5) (rowOf (n := 1) (V c main_v13) 0) (V c main_arg7)) ⟨(y 0).val, (y 0).isLt⟩)
        (rowOf (n := 1) (V c main_v14) 0) (rowOf (n := 1) (V c main_v15) 0)) (V c main_arg10) (rowOf (n := 1) (V c main_v16) 0) (⟨(y 1).val, (y 1).isLt⟩ : Fin 64)
    = affRow (actRow (rowOf (n := 50000) (resArr (n := 50000) (V c main_v42) (V c main_v30_1) (V c main_v30_0) (V c main_arg5) (rowOf (n := 1) (V c main_v13) 0) (V c main_arg7)) ((((cfg2.win 10).blk t).view.emb y) 0))
        (rowOf (n := 1) (V c main_v14) 0) (rowOf (n := 1) (V c main_v15) 0)) (V c main_arg10) (rowOf (n := 1) (V c main_v16) 0) ((((cfg2.win 10).blk t).view.emb y) 1)
  exact congrArg₂ (fun a b => affRow (actRow a (rowOf (n := 1) (V c main_v14) 0) (rowOf (n := 1) (V c main_v15) 0)) (V c main_arg10)
    (rowOf (n := 1) (V c main_v16) 0) b) hres hc1.symm

end R2

variable (V : (c : Dev nD) → (b : Ref sig .tc) → Buf (Elt Ideal) ((c : Thread nD τ).loc b))

/-- The ten output blocks tile the output array, so after the run it holds the output rows of the arrays as the call
    finds them. -/
theorem final2 (c : Dev nD) : (dat2 V c).arrAt 10 cfg2.N
      = outArr (n := 50000) (resArr (n := 50000) (V c main_v42) (V c main_v30_1) (V c main_v30_0) (V c main_arg5) (rowOf (n := 1) (V c main_v13) 0) (V c main_arg7))
          (rowOf (n := 1) (V c main_v14) 0) (rowOf (n := 1) (V c main_v15) 0) (V c main_arg10) (rowOf (n := 1) (V c main_v16) 0) :=
  (dat2 V c).arrAt_eq_of_cover 10 _ (fun t _ => R2.flushed2 V c t) fun i => by
    have hi0 : (i 0).val < 50000 := (i 0).isLt
    have hi1 : (i 1).val < 64 := (i 1).isLt
    have hN : cfg2.N = 10 := N_2
    have ht : (i 0).val / 5000 < cfg2.N := by rw [hN]; omega
    have e0 : win2_10.index ⟨(i 0).val / 5000, ht⟩ (0 : Fin 2) = (i 0).val / 5000 := (R2.idx2r ⟨(i 0).val / 5000, ht⟩).2.2.2.2.2.2.1
    have e1 : win2_10.index ⟨(i 0).val / 5000, ht⟩ (1 : Fin 2) = 0 := (R2.idx2r ⟨(i 0).val / 5000, ht⟩).2.2.2.2.2.2.2
    refine ⟨⟨(i 0).val / 5000, ht⟩, flush2_10 _, ?_⟩
    show i ∈ ((View.whole main_v43).slice (win2_10.rect ⟨(i 0).val / 5000, ht⟩)).set
    rw [View.set_slice_whole, Rect.mem_set_unit]
    intro a
    match a with
    | ⟨0, _⟩ =>
      show win2_10.index ⟨(i 0).val / 5000, ht⟩ (0 : Fin 2) * 5000 ≤ (i 0).val
        ∧ (i 0).val < win2_10.index ⟨(i 0).val / 5000, ht⟩ (0 : Fin 2) * 5000 + 5000
      rw [e0]; omega
    | ⟨1, _⟩ =>
      show win2_10.index ⟨(i 0).val / 5000, ht⟩ (1 : Fin 2) * 64 ≤ (i 1).val
        ∧ (i 1).val < win2_10.index ⟨(i 0).val / 5000, ht⟩ (1 : Fin 2) * 64 + 64
      rw [e1]; omega

end Cert.KernelIdeal.Hand

end
-- ==== Proof.Chain.lean ====
/-
  The kernel program's result as one function of the argument arrays.

  Between the calls every buffer holds what the last writer left: a call's output array what its blocks wrote (the
  row-wise maps of the arrays the call was entered with), a host result its operations' value, and every other buffer
  what it held before.  Reading the result array back through the three calls and the two aggregations gives the
  network: encode, aggregate and convolve, normalise and rectify, aggregate and convolve with the residual, normalise,
  rectify and project.
-/
import proofs.«130707_j87376814670104_1_alg».proof.Proof.Host0
import proofs.«130707_j87376814670104_1_alg».proof.Proof.Host2
import proofs.«130707_j87376814670104_1_alg».proof.Proof.Region0
import proofs.«130707_j87376814670104_1_alg».proof.Proof.Region1
import proofs.«130707_j87376814670104_1_alg».proof.Proof.Region2
import Idealize.ShloMosaic.Lib.StableHlo.Run

set_option maxRecDepth 16384

noncomputable section

open Idealize.ShloMosaic Idealize.ShloMosaic.TcCoe Idealize.ShloMosaic.ValueIdx Idealize.SL.Sem Idealize.ShloMosaic.StableHlo
open Idealize.ShloMosaic.Pipeline (Dat)

namespace Cert.KernelIdeal.Hand

open Cert.KernelIdeal Cert.KernelIdeal.Gen Cert.Sage

variable (m : (ℓ : Loc nD τ sig) → Buf (Elt Ideal) ℓ) (ρ : Dev nD → PrngReg)

/-! ## Buffers no call and no later host operation writes keep their contents -/

theorem K2_arg5 (c : Dev nD) : W2 m ρ c (Proc.devRef .tc main_arg5) = W1 m ρ c (Proc.devRef .tc main_arg5) := W2_of_ne m ρ c main_arg5 (by decide)
theorem K3_arg5 (c : Dev nD) : W3 m ρ c (Proc.devRef .tc main_arg5) = W2 m ρ c (Proc.devRef .tc main_arg5) := by
  show StableHlo.after hostOps1 (W2 m ρ c) (Proc.devRef .tc main_arg5) = W2 m ρ c (Proc.devRef .tc main_arg5)
  host_keeps
theorem K4_arg5 (c : Dev nD) : W4 m ρ c (Proc.devRef .tc main_arg5) = W3 m ρ c (Proc.devRef .tc main_arg5) :=
  (W4_arr m ρ c 2).trans (((dat1 (V3 m ρ) c).arrAt_in 2 rfl _).trans (A_eq1 (V3 m ρ) c 2))
theorem K5_arg5 (c : Dev nD) : W5 m ρ c (Proc.devRef .tc main_arg5) = W4 m ρ c (Proc.devRef .tc main_arg5) := by
  show StableHlo.after hostOps2 (W4 m ρ c) (Proc.devRef .tc main_arg5) = W4 m ρ c (Proc.devRef .tc main_arg5)
  host_keeps

theorem K2_v13 (c : Dev nD) : W2 m ρ c (Proc.devRef .tc main_v13) = W1 m ρ c (Proc.devRef .tc main_v13) := W2_of_ne m ρ c main_v13 (by decide)
theorem K3_v13 (c : Dev nD) : W3 m ρ c (Proc.devRef .tc main_v13) = W2 m ρ c (Proc.devRef .tc main_v13) := by
  show StableHlo.after hostOps1 (W2 m ρ c) (Proc.devRef .tc main_v13) = W2 m ρ c (Proc.devRef .tc main_v13)
  host_keeps
theorem K4_v13 (c : Dev nD) : W4 m ρ c (Proc.devRef .tc main_v13) = W3 m ρ c (Proc.devRef .tc main_v13) :=
  (W4_arr m ρ c 3).trans (((dat1 (V3 m ρ) c).arrAt_in 3 rfl _).trans (A_eq1 (V3 m ρ) c 3))
theorem K5_v13 (c : Dev nD) : W5 m ρ c (Proc.devRef .tc main_v13) = W4 m ρ c (Proc.devRef .tc main_v13) := by
  show StableHlo.after hostOps2 (W4 m ρ c) (Proc.devRef .tc main_v13) = W4 m ρ c (Proc.devRef .tc main_v13)
  host_keeps

theorem K2_arg7 (c : Dev nD) : W2 m ρ c (Proc.devRef .tc main_arg7) = W1 m ρ c (Proc.devRef .tc main_arg7) := W2_of_ne m ρ c main_arg7 (by decide)
theorem K3_arg7 (c : Dev nD) : W3 m ρ c (Proc.devRef .tc main_arg7) = W2 m ρ c (Proc.devRef .tc main_arg7) := by
  show StableHlo.after hostOps1 (W2 m ρ c) (Proc.devRef .tc main_arg7) = W2 m ρ c (Proc.devRef .tc main_arg7)
  host_keeps
theorem K4_arg7 (c : Dev nD) : W4 m ρ c (Proc.devRef .tc main_arg7) = W3 m ρ c (Proc.devRef .tc main_arg7) :=
  (W4_arr m ρ c 4).trans (((dat1 (V3 m ρ) c).arrAt_in 4 rfl _).trans (A_eq1 (V3 m ρ) c 4))
theorem K5_arg7 (c : Dev nD) : W5 m ρ c (Proc.devRef .tc main_arg7) = W4 m ρ c (Proc.devRef .tc main_arg7) := by
  show StableHlo.after hostOps2 (W4 m ρ c) (Proc.devRef .tc main_arg7) = W4 m ρ c (Proc.devRef .tc main_arg7)
  host_keeps

theorem K2_v14 (c : Dev nD) : W2 m ρ c (Proc.devRef .tc main_v14) = W1 m ρ c (Proc.devRef .tc main_v14) := W2_of_ne m ρ c main_v14 (by decide)
theorem K3_v14 (c : Dev nD) : W3 m ρ c (Proc.devRef .tc main_v14) = W2 m ρ c (Proc.devRef .tc main_v14) := by
  show StableHlo.after hostOps1 (W2 m ρ c) (Proc.devRef .tc main_v14) = W2 m ρ c (Proc.devRef .tc main_v14)
  host_keeps
theorem K4_v14 (c : Dev nD) : W4 m ρ c (Proc.devRef .tc main_v14) = W3 m ρ c (Proc.devRef .tc main_v14) :=
  (W4_arr m ρ c 5).trans (((dat1 (V3 m ρ) c).arrAt_in 5 rfl _).trans (A_eq1 (V3 m ρ) c 5))
theorem K5_v14 (c : Dev nD) : W5 m ρ c (Proc.devRef .tc main_v14) = W4 m ρ c (Proc.devRef .tc main_v14) := by
  show StableHlo.after hostOps2 (W4 m ρ c) (Proc.devRef .tc main_v14) = W4 m ρ c (Proc.devRef .tc main_v14)
  host_keeps

theorem K2_v15 (c : Dev nD) : W2 m ρ c (Proc.devRef .tc main_v15) = W1 m ρ c (Proc.devRef .tc main_v15) := W2_of_ne m ρ c main_v15 (by decide)
theorem K3_v15 (c : Dev nD) : W3 m ρ c (Proc.devRef .tc main_v15) = W2 m ρ c (Proc.devRef .tc main_v15) := by
  show StableHlo.after hostOps1 (W2 m ρ c) (Proc.devRef .tc main_v15) = W2 m ρ c (Proc.devRef .tc main_v15)
  host_keeps
theorem K4_v15 (c : Dev nD) : W4 m ρ c (Proc.devRef .tc main_v15) = W3 m ρ c (Proc.devRef .tc main_v15) :=
  (W4_arr m ρ c 6).trans (((dat1 (V3 m ρ) c).arrAt_in 6 rfl _).trans (A_eq1 (V3 m ρ) c 6))
theorem K5_v15 (c : Dev nD) : W5 m ρ c (Proc.devRef .tc main_v15) = W4 m ρ c (Proc.devRef .tc main_v15) := by
  show StableHlo.after hostOps2 (W4 m ρ c) (Proc.devRef .tc main_v15) = W4 m ρ c (Proc.devRef .tc main_v15)
  host_keeps

theorem K2_arg10 (c : Dev nD) : W2 m ρ c (Proc.devRef .tc main_arg10) = W1 m ρ c (Proc.devRef .tc main_arg10) := W2_of_ne m ρ c main_arg10 (by decide)
theorem K3_arg10 (c : Dev nD) : W3 m ρ c (Proc.devRef .tc main_arg10) = W2 m ρ c (Proc.devRef .tc main_arg10) := by
  show StableHlo.after hostOps1 (W2 m ρ c) (Proc.devRef .tc main_arg10) = W2 m ρ c (Proc.devRef .tc main_arg10)
  host_keeps
theorem K4_arg10 (c : Dev nD) : W4 m ρ c (Proc.devRef .tc main_arg10) = W3 m ρ c (Proc.devRef .tc main_arg10) := W4_of_ne m ρ c main_arg10 (by decide)
theorem K5_arg10 (c : Dev nD) : W5 m ρ c (Proc.devRef .tc main_arg10) = W4 m ρ c (Proc.devRef .tc main_arg10) := by
  show StableHlo.after hostOps2 (W4 m ρ c) (Proc.devRef .tc main_arg10) = W4 m ρ c (Proc.devRef .tc main_arg10)
  host_keeps

theorem K2_v16 (c : Dev nD) : W2 m ρ c (Proc.devRef .tc main_v16) = W1 m ρ c (Proc.devRef .tc main_v16) := W2_of_ne m ρ c main_v16 (by decide)
theorem K3_v16 (c : Dev nD) : W3 m ρ c (Proc.devRef .tc main_v16) = W2 m ρ c (Proc.devRef .tc main_v16) := by
  show StableHlo.after hostOps1 (W2 m ρ c) (Proc.devRef .tc main_v16) = W2 m ρ c (Proc.devRef .tc main_v16)
  host_keeps
theorem K4_v16 (c : Dev nD) : W4 m ρ c (Proc.devRef .tc main_v16) = W3 m ρ c (Proc.devRef .tc main_v16) := W4_of_ne m ρ c main_v16 (by decide)
theorem K5_v16 (c : Dev nD) : W5 m ρ c (Proc.devRef .tc main_v16) = W4 m ρ c (Proc.devRef .tc main_v16) := by
  show StableHlo.after hostOps2 (W4 m ρ c) (Proc.devRef .tc main_v16) = W4 m ρ c (Proc.devRef .tc main_v16)
  host_keeps

theorem K2_v1 (c : Dev nD) : W2 m ρ c (Proc.devRef .tc main_v1) = W1 m ρ c (Proc.devRef .tc main_v1) := W2_of_ne m ρ c main_v1 (by decide)
theorem K3_v1 (c : Dev nD) : W3 m ρ c (Proc.devRef .tc main_v1) = W2 m ρ c (Proc.devRef .tc main_v1) := by
  show StableHlo.after hostOps1 (W2 m ρ c) (Proc.devRef .tc main_v1) = W2 m ρ c (Proc.devRef .tc main_v1)
  host_keeps
theorem K4_v1 (c : Dev nD) : W4 m ρ c (Proc.devRef .tc main_v1) = W3 m ρ c (Proc.devRef .tc main_v1) := W4_of_ne m ρ c main_v1 (by decide)

theorem K2_v3 (c : Dev nD) : W2 m ρ c (Proc.devRef .tc main_v3) = W1 m ρ c (Proc.devRef .tc main_v3) := W2_of_ne m ρ c main_v3 (by decide)
theorem K3_v3 (c : Dev nD) : W3 m ρ c (Proc.devRef .tc main_v3) = W2 m ρ c (Proc.devRef .tc main_v3) := by
  show StableHlo.after hostOps1 (W2 m ρ c) (Proc.devRef .tc main_v3) = W2 m ρ c (Proc.devRef .tc main_v3)
  host_keeps
theorem K4_v3 (c : Dev nD) : W4 m ρ c (Proc.devRef .tc main_v3) = W3 m ρ c (Proc.devRef .tc main_v3) := W4_of_ne m ρ c main_v3 (by decide)

theorem K2_v11 (c : Dev nD) : W2 m ρ c (Proc.devRef .tc main_v11) = W1 m ρ c (Proc.devRef .tc main_v11) := W2_of_ne m ρ c main_v11 (by decide)
theorem K3_v11 (c : Dev nD) : W3 m ρ c (Proc.devRef .tc main_v11) = W2 m ρ c (Proc.devRef .tc main_v11) := by
  show StableHlo.after hostOps1 (W2 m ρ c) (Proc.devRef .tc main_v11) = W2 m ρ c (Proc.devRef .tc main_v11)
  host_keeps
theorem K4_v11 (c : Dev nD) : W4 m ρ c (Proc.devRef .tc main_v11) = W3 m ρ c (Proc.devRef .tc main_v11) := W4_of_ne m ρ c main_v11 (by decide)

theorem K3_v17 (c : Dev nD) : W3 m ρ c (Proc.devRef .tc main_v17) = W2 m ρ c (Proc.devRef .tc main_v17) := by
  show StableHlo.after hostOps1 (W2 m ρ c) (Proc.devRef .tc main_v17) = W2 m ρ c (Proc.devRef .tc main_v17)
  host_keeps
theorem K5_v30_0 (c : Dev nD) : W5 m ρ c (Proc.devRef .tc main_v30_0) = W4 m ρ c (Proc.devRef .tc main_v30_0) := by
  show StableHlo.after hostOps2 (W4 m ρ c) (Proc.devRef .tc main_v30_0) = W4 m ρ c (Proc.devRef .tc main_v30_0)
  host_keeps
theorem K5_v30_1 (c : Dev nD) : W5 m ρ c (Proc.devRef .tc main_v30_1) = W4 m ρ c (Proc.devRef .tc main_v30_1) := by
  show StableHlo.after hostOps2 (W4 m ρ c) (Proc.devRef .tc main_v30_1) = W4 m ρ c (Proc.devRef .tc main_v30_1)
  host_keeps

/-! ## The network -/

/-- The kernel program's result from the argument arrays. -/
def kres (X : (⟨S50000x128, .f32⟩ : BufTy).Contents (Elt Ideal)) (E : (⟨S2x800000, .i32⟩ : BufTy).Contents (Elt Ideal))
    (Wne : (⟨S128x128, .f32⟩ : BufTy).Contents (Elt Ideal)) (bne : (⟨S128, .f32⟩ : BufTy).Contents (Elt Ideal))
    (Wl : (⟨S128x128, .f32⟩ : BufTy).Contents (Elt Ideal)) (bl : (⟨S128, .f32⟩ : BufTy).Contents (Elt Ideal))
    (Wr : (⟨S128x128, .f32⟩ : BufTy).Contents (Elt Ideal)) (g be : (⟨S128, .f32⟩ : BufTy).Contents (Elt Ideal))
    (Wo : (⟨S128x64, .f32⟩ : BufTy).Contents (Elt Ideal)) (bo : (⟨S64, .f32⟩ : BufTy).Contents (Elt Ideal)) :
    (⟨S50000x64, .f32⟩ : BufTy).Contents (Elt Ideal) :=
  let H0 : (⟨S50000x128, .f32⟩ : BufTy).Contents (Elt Ideal) := encArr (n := 50000) X Wne (rowOf (n := 1) (shapeCast S1x128 bne shapeCasts_S128_S1x128) 0)
  let blr := rowOf (n := 1) (shapeCast S1x128 bl shapeCasts_S128_S1x128) 0
  let gr := rowOf (n := 1) (shapeCast S1x128 g shapeCasts_S128_S1x128) 0
  let ber := rowOf (n := 1) (shapeCast S1x128 be shapeCasts_S128_S1x128) 0
  let H1 : (⟨S50000x128, .f32⟩ : BufTy).Contents (Elt Ideal) := convArr (n := 50000) (aggMul H0 (srcOf E) (dstOf E) (invOf E)) H0 Wl blr Wr
  let R : (⟨S50000x128, .f32⟩ : BufTy).Contents (Elt Ideal) := actArr (n := 50000) H1 gr ber
  outArr (n := 50000) (resArr (n := 50000) (aggMul R (srcOf E) (dstOf E) (invOf E)) R H1 Wl blr Wr) gr ber Wo
    (rowOf (n := 1) (shapeCast S1x64 bo shapeCasts_S64_S1x64) 0)

set_option maxHeartbeats 8000000 in
/-- After the run the result array holds the network of the argument arrays. -/
theorem W6_v43 (c : Dev nD) : W6 m ρ c (Proc.devRef .tc main_v43)
    = kres (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9))
        (m ((c : Thread nD τ).loc main_arg10)) (m ((c : Thread nD τ).loc main_arg11)) := by
  -- the static buffers at every boundary
  have s1 := W1_v1 m ρ c
  have s3 := W1_v3 m ρ c
  have s11 := W1_v11 m ρ c
  -- the first call's output
  have h0 : W2 m ρ c (Proc.devRef .tc main_v17) = encArr (n := 50000) (m ((c : Thread nD τ).loc main_arg0)) (m ((c : Thread nD τ).loc main_arg3))
      (rowOf (n := 1) (shapeCast S1x128 (m ((c : Thread nD τ).loc main_arg4)) shapeCasts_S128_S1x128) 0) := by
    refine (W2_arr m ρ c 3).trans ((final0 (V1 m ρ) c).trans ?_)
    show encArr (n := 50000) (W1 m ρ c (Proc.devRef .tc main_arg0)) (W1 m ρ c (Proc.devRef .tc main_arg3)) (rowOf (n := 1) (W1 m ρ c (Proc.devRef .tc main_v12)) 0) = _
    rw [W1_arg0, W1_arg3, W1_v12]
  -- the first aggregation
  have m1 : W3 m ρ c (Proc.devRef .tc main_v29) = aggMul (W2 m ρ c (Proc.devRef .tc main_v17)) (srcOf (m ((c : Thread nD τ).loc main_arg1)))
      (dstOf (m ((c : Thread nD τ).loc main_arg1))) (invOf (m ((c : Thread nD τ).loc main_arg1))) := by
    rw [W3_v29, K2_v1, K2_v3, K2_v11, s1, s3, s11]
  -- the second call's outputs
  have h1 : W4 m ρ c (Proc.devRef .tc main_v30_0) = convArr (n := 50000) (W3 m ρ c (Proc.devRef .tc main_v29)) (W2 m ρ c (Proc.devRef .tc main_v17))
      (m ((c : Thread nD τ).loc main_arg5)) (rowOf (n := 1) (shapeCast S1x128 (m ((c : Thread nD τ).loc main_arg6)) shapeCasts_S128_S1x128) 0)
      (m ((c : Thread nD τ).loc main_arg7)) := by
    refine (W4_arr m ρ c 7).trans ((final1_h (V3 m ρ) c).trans ?_)
    show convArr (n := 50000) (W3 m ρ c (Proc.devRef .tc main_v29)) (W3 m ρ c (Proc.devRef .tc main_v17)) (W3 m ρ c (Proc.devRef .tc main_arg5))
      (rowOf (n := 1) (W3 m ρ c (Proc.devRef .tc main_v13)) 0) (W3 m ρ c (Proc.devRef .tc main_arg7)) = _
    rw [K3_v17, K3_arg5, K2_arg5, W1_arg5, K3_v13, K2_v13, W1_v13, K3_arg7, K2_arg7, W1_arg7]
  have r1 : W4 m ρ c (Proc.devRef .tc main_v30_1) = actArr (n := 50000) (W4 m ρ c (Proc.devRef .tc main_v30_0))
      (rowOf (n := 1) (shapeCast S1x128 (m ((c : Thread nD τ).loc main_arg8)) shapeCasts_S128_S1x128) 0)
      (rowOf (n := 1) (shapeCast S1x128 (m ((c : Thread nD τ).loc main_arg9)) shapeCasts_S128_S1x128) 0) := by
    refine (W4_arr m ρ c 8).trans ((final1_r (V3 m ρ) c).trans ?_)
    rw [h1]
    show actArr (n := 50000) (convArr (n := 50000) (W3 m ρ c (Proc.devRef .tc main_v29)) (W3 m ρ c (Proc.devRef .tc main_v17)) (W3 m ρ c (Proc.devRef .tc main_arg5))
      (rowOf (n := 1) (W3 m ρ c (Proc.devRef .tc main_v13)) 0) (W3 m ρ c (Proc.devRef .tc main_arg7)))
      (rowOf (n := 1) (W3 m ρ c (Proc.devRef .tc main_v14)) 0) (rowOf (n := 1) (W3 m ρ c (Proc.devRef .tc main_v15)) 0) = _
    rw [K3_v17, K3_arg5, K2_arg5, W1_arg5, K3_v13, K2_v13, W1_v13, K3_arg7, K2_arg7, W1_arg7, K3_v14, K2_v14, W1_v14, K3_v15, K2_v15, W1_v15]
  -- the second aggregation
  have m2 : W5 m ρ c (Proc.devRef .tc main_v42) = aggMul (W4 m ρ c (Proc.devRef .tc main_v30_1)) (srcOf (m ((c : Thread nD τ).loc main_arg1)))
      (dstOf (m ((c : Thread nD τ).loc main_arg1))) (invOf (m ((c : Thread nD τ).loc main_arg1))) := by
    rw [W5_v42, K4_v1, K3_v1, K2_v1, K4_v3, K3_v3, K2_v3, K4_v11, K3_v11, K2_v11, s1, s3, s11]
  -- the third call's output
  refine (W6_arr m ρ c 10).trans ((final2 (V5 m ρ) c).trans ?_)
  show outArr (n := 50000) (resArr (n := 50000) (W5 m ρ c (Proc.devRef .tc main_v42)) (W5 m ρ c (Proc.devRef .tc main_v30_1)) (W5 m ρ c (Proc.devRef .tc main_v30_0))
      (W5 m ρ c (Proc.devRef .tc main_arg5)) (rowOf (n := 1) (W5 m ρ c (Proc.devRef .tc main_v13)) 0) (W5 m ρ c (Proc.devRef .tc main_arg7)))
      (rowOf (n := 1) (W5 m ρ c (Proc.devRef .tc main_v14)) 0) (rowOf (n := 1) (W5 m ρ c (Proc.devRef .tc main_v15)) 0)
      (W5 m ρ c (Proc.devRef .tc main_arg10)) (rowOf (n := 1) (W5 m ρ c (Proc.devRef .tc main_v16)) 0) = _
  rw [m2, K5_v30_1, K5_v30_0, r1, h1, m1, h0,
    K5_arg5, K4_arg5, K3_arg5, K2_arg5, W1_arg5, K5_v13, K4_v13, K3_v13, K2_v13, W1_v13, K5_arg7, K4_arg7, K3_arg7, K2_arg7, W1_arg7,
    K5_v14, K4_v14, K3_v14, K2_v14, W1_v14, K5_v15, K4_v15, K3_v15, K2_v15, W1_v15,
    K5_arg10, K4_arg10, K3_arg10, K2_arg10, W1_arg10, K5_v16, K4_v16, K3_v16, K2_v16, W1_v16]
  rfl

end Cert.KernelIdeal.Hand

end
-- ==== Proof.RefValue.lean ====
/-
  The reference program's five stages as whole arrays, through the row-wise maps.

  Each stage of the reference is read at a row `r` and a column `q`: a matrix product is the sum over the contracted
  index of the left row's entries times the right matrix's column; a bias is read at the column; a row's mean and
  variance are the row's sum, and the sum of the squared deviations, over the float `128`; the normalised entry is the
  deviation times the reciprocal square root of the variance plus the constant, under the gain and the offset, clipped
  below at zero.  At each `(r, q)` that is the row-wise map applied to row `r` of the operands, read at `q`.
-/
import proofs.«130707_j87376814670104_1_alg».proof.Proof.Gen.ReferenceIdeal.Read
import proofs.«130707_j87376814670104_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Cert.Sage Idealize.ShloMosaic Idealize.ShloMosaic.ValueIdx

/-- Two rank-2 indices agree when their two coordinates agree as numbers. -/
local macro "idx2" : tactic =>
  `(tactic| exact funext fun a => Fin.ext (by match a with | ⟨0, _⟩ => rfl | ⟨1, _⟩ => rfl))
/-- Two rank-1 indices agree when their coordinate agrees as a number. -/
local macro "idx1" : tactic =>
  `(tactic| exact funext fun a => Fin.ext (by match a with | ⟨0, _⟩ => rfl))

/-! ## The row-wise maps from sums read at coordinates -/

/-- A sum of products over the contracted index, the left factor read along row `r` and the right down column `q`,
    is row `r` times the matrix, at `q`. -/
theorem sum_rowMat {n a b : ℕ} (A : Arr2 n a) (W : Arr2 a b) (r : Fin n) (q : Fin b)
    (li : Fin a → (⟨2, ![n, a]⟩ : Shape).Idx) (ri : Fin a → (⟨2, ![a, b]⟩ : Shape).Idx)
    (hl : ∀ k, li k = ix2 r k) (hr : ∀ k, ri k = ix2 k q) :
    ∑ k : Fin a, A (li k) * W (ri k) = rowMat (rowOf A r) W q := by
  simp only [hl, hr]; rfl

/-- The same, the left factor's row given as a function: the sum is that row times the matrix, at `q`. -/
theorem sum_rowMat_of {n a b : ℕ} (A : Arr2 n a) (W : Arr2 a b) (x : Fin a → EReal) (r : Fin n) (q : Fin b)
    (li : Fin a → (⟨2, ![n, a]⟩ : Shape).Idx) (ri : Fin a → (⟨2, ![a, b]⟩ : Shape).Idx)
    (hl : ∀ k, li k = ix2 r k) (hr : ∀ k, ri k = ix2 k q) (hx : ∀ k, A (ix2 r k) = x k) :
    ∑ k : Fin a, A (li k) * W (ri k) = rowMat x W q := by
  simp only [hl, hr, hx]; rfl

/-- The layer normalisation with its rectifier at `(r, q)`, from a mean and a variance given by their defining sums
    (each sum started from the float zero). -/
theorem actRow_of_mean_var {n : ℕ} (H : Arr2 n 128) (γ β : Fin 128 → EReal) (r : Fin n) (q : Fin 128) (m v : EReal)
    (hm : m = Ideal.div (Ideal.ofBits .f32 0x00000000#32 + ∑ k : Fin 128, H (ix2 r k)) (Ideal.ofBits .f32 0x43000000#32))
    (hv : v = Ideal.div (Ideal.ofBits .f32 0x00000000#32 + ∑ k : Fin 128, (H (ix2 r k) - m) * (H (ix2 r k) - m))
      (Ideal.ofBits .f32 0x43000000#32)) :
    max ((H (ix2 r q) - m) * Ideal.rsqrt (v + Ideal.ofBits .f32 0x3727C5AC#32) * γ q + β q) (Ideal.ofBits .f32 0x00000000#32)
      = actRow (rowOf H r) γ β q := by
  have hm' : m = rowMean (rowOf H r) := by rw [hm, Ideal.ofBits_zero_f32, zero_add]; rfl
  have hv' : v = rowVar (rowOf H r) := by rw [hv, Ideal.ofBits_zero_f32, zero_add, hm']; rfl
  rw [hm', hv']; rfl

/-- A sum read through one family of indices is the sum read through an equal family. -/
theorem sum_reindex {ι : Type} {a : ℕ} (f : ι → EReal) (li lj : Fin a → ι) (h : ∀ k, li k = lj k) :
    ∑ k : Fin a, f (li k) = ∑ k : Fin a, f (lj k) :=
  Finset.sum_congr rfl fun k _ => congrArg f (h k)

variable (x0 : (⟨S50000x128, .f32⟩ : BufTy).Contents (Elt Ideal)) (x1 : (⟨S2x800000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x128, .f32⟩ : BufTy).Contents (Elt Ideal)) (x8 x9 : (⟨S128, .f32⟩ : BufTy).Contents (Elt Ideal))
  (x10 : (⟨S128x64, .f32⟩ : BufTy).Contents (Elt Ideal)) (x11 : (⟨S64, .f32⟩ : BufTy).Contents (Elt Ideal))

/-! ## The encoder: `x @ W_ne + b_ne` -/

theorem enc_eq : val_main_v7 (F := Ideal) x0 x3 x4 = encArr x0 x3 (fun q => x4 (ix1 q)) := by
  funext i
  obtain ⟨r, q, rfl⟩ : ∃ (r : Fin 50000) (q : Fin 128), i = ix2 r q := ⟨i 0, i 1, eq_ix2 i⟩
  rw [val_main_v7_apply, val_main_v4_apply, val_main_v6_apply, val_main_v5_apply,
    sum_rowMat x0 x3 r q (lidx_main_v4 (ix2 r q)) (ridx_main_v4 (ix2 r q)) (fun k => by idx2) (fun k => by idx2),
    show idx_main_v5 (idx_main_v6 (ix2 r q)) = ix1 q by idx1]
  rfl

/-! ## The first convolution: `(mean @ W_l + b_l) + h @ W_r` -/

theorem conv1_eq : val_main_v31 (F := Ideal) x0 x1 x3 x4 x5 x6 x7
      = convArr (val_main_v25 (F := Ideal) x0 x1 x3 x4) (val_main_v7 (F := Ideal) x0 x3 x4) x5 (fun q => x6 (ix1 q)) x7 := by
  funext i
  obtain ⟨r, q, rfl⟩ : ∃ (r : Fin 50000) (q : Fin 128), i = ix2 r q := ⟨i 0, i 1, eq_ix2 i⟩
  rw [val_main_v31_apply, val_main_v29_apply, val_main_v26_apply, val_main_v28_apply, val_main_v27_apply,
    val_main_v30_apply]
  generalize val_main_v25 (F := Ideal) x0 x1 x3 x4 = M
  generalize val_main_v7 (F := Ideal) x0 x3 x4 = h
  rw [sum_rowMat M x5 r q (lidx_main_v26 (ix2 r q)) (ridx_main_v26 (ix2 r q)) (fun k => by idx2) (fun k => by idx2),
    sum_rowMat h x7 r q (lidx_main_v30 (ix2 r q)) (ridx_main_v30 (ix2 r q)) (fun k => by idx2) (fun k => by idx2),
    show idx_main_v27 (idx_main_v28 (ix2 r q)) = ix1 q by idx1]
  rfl
/-! ## The first layer normalisation with its rectifier, read at a row and a column -/

/-- Row `r`'s mean: the row's sum, started from the float zero, over the float `128`. -/
theorem mean1_at (r : Fin 50000) :
    val_main_v35 (F := Ideal) x0 x1 x3 x4 x5 x6 x7 (ix2 r (0 : Fin 1))
      = Ideal.div (Ideal.ofBits .f32 0x00000000#32 + ∑ k : Fin 128, val_main_v31 (F := Ideal) x0 x1 x3 x4 x5 x6 x7 (ix2 r k))
          (Ideal.ofBits .f32 0x43000000#32) := by
  rw [val_main_v35_apply, val_main_v33_apply, val_main_v32_apply, val_main_v34_apply,
    val_main_cst_5_apply, val_main_cst_4_apply]
  generalize val_main_v31 (F := Ideal) x0 x1 x3 x4 x5 x6 x7 = H
  rw [sum_reindex H (idx_main_v32 (idx_main_v33 (ix2 r (0 : Fin 1)))) (ix2 r) (fun k => by idx2)]
  rfl

/-- The squared deviation of the entry at `(r, k)` from row `r`'s mean. -/
theorem dev1_at (r : Fin 50000) (k : Fin 128) :
    val_main_v38 (F := Ideal) x0 x1 x3 x4 x5 x6 x7 (ix2 r k)
      = (val_main_v31 (F := Ideal) x0 x1 x3 x4 x5 x6 x7 (ix2 r k) - val_main_v35 (F := Ideal) x0 x1 x3 x4 x5 x6 x7 (ix2 r (0 : Fin 1)))
        * (val_main_v31 (F := Ideal) x0 x1 x3 x4 x5 x6 x7 (ix2 r k) - val_main_v35 (F := Ideal) x0 x1 x3 x4 x5 x6 x7 (ix2 r (0 : Fin 1))) := by
  rw [val_main_v38_apply, val_main_v37_apply, val_main_v36_apply,
    show idx_main_v36 (ix2 r k) = ix2 r (0 : Fin 1) by idx2]
  rfl

/-- Row `r`'s variance: the sum of the squared deviations, started from the float zero, over the float `128`. -/
theorem var1_at (r : Fin 50000) :
    val_main_v42 (F := Ideal) x0 x1 x3 x4 x5 x6 x7 (ix2 r (0 : Fin 1))
      = Ideal.div (Ideal.ofBits .f32 0x00000000#32 + ∑ k : Fin 128,
            (val_main_v31 (F := Ideal) x0 x1 x3 x4 x5 x6 x7 (ix2 r k) - val_main_v35 (F := Ideal) x0 x1 x3 x4 x5 x6 x7 (ix2 r (0 : Fin 1)))
            * (val_main_v31 (F := Ideal) x0 x1 x3 x4 x5 x6 x7 (ix2 r k) - val_main_v35 (F := Ideal) x0 x1 x3 x4 x5 x6 x7 (ix2 r (0 : Fin 1))))
          (Ideal.ofBits .f32 0x43000000#32) := by
  rw [val_main_v42_apply, val_main_v40_apply, val_main_v39_apply, val_main_v41_apply,
    val_main_cst_7_apply, val_main_cst_6_apply,
    sum_reindex (val_main_v38 (F := Ideal) x0 x1 x3 x4 x5 x6 x7) (idx_main_v39 (idx_main_v40 (ix2 r (0 : Fin 1))))
      (ix2 r) (fun k => by idx2)]
  simp only [dev1_at]
  rfl

/-- The normalised, rectified entry at `(r, q)` is the row-wise map of row `r`, read at `q`. -/
theorem act1_at (r : Fin 50000) (q : Fin 128) :
    val_main_v56 (F := Ideal) x0 x1 x3 x4 x5 x6 x7 x8 x9 (ix2 r q)
      = actRow (rowOf (val_main_v31 (F := Ideal) x0 x1 x3 x4 x5 x6 x7) r) (fun q => x8 (ix1 q)) (fun q => x9 (ix1 q)) q := by
  rw [val_main_v56_apply, val_main_v55_apply, val_main_v52_apply, val_main_v49_apply, val_main_v44_apply,
    val_main_v43_apply, val_main_v48_apply, val_main_v47_apply, val_main_v46_apply, val_main_v45_apply,
    val_main_cst_8_apply, val_main_v51_apply, val_main_v50_apply, val_main_v54_apply, val_main_v53_apply,
    val_main_call0_v0_apply, val_main_call0_cst_apply,
    show idx_main_v43 (ix2 r q) = ix2 r (0 : Fin 1) by idx2, show idx_main_v48 (ix2 r q) = ix2 r (0 : Fin 1) by idx2,
    show idx_main_v50 (idx_main_v51 (ix2 r q)) = ix1 q by idx1,
    show idx_main_v53 (idx_main_v54 (ix2 r q)) = ix1 q by idx1]
  exact actRow_of_mean_var _ (fun q => x8 (ix1 q)) (fun q => x9 (ix1 q)) r q _ _
    (mean1_at x0 x1 x3 x4 x5 x6 x7 r) (var1_at x0 x1 x3 x4 x5 x6 x7 r)

theorem act1_eq : val_main_v56 (F := Ideal) x0 x1 x3 x4 x5 x6 x7 x8 x9
      = actArr (val_main_v31 (F := Ideal) x0 x1 x3 x4 x5 x6 x7) (fun q => x8 (ix1 q)) (fun q => x9 (ix1 q)) := by
  funext i
  obtain ⟨r, q, rfl⟩ : ∃ (r : Fin 50000) (q : Fin 128), i = ix2 r q := ⟨i 0, i 1, eq_ix2 i⟩
  exact act1_at x0 x1 x3 x4 x5 x6 x7 x8 x9 r q

/-! ## The second convolution with its residual: `((mean2 @ W_l + b_l) + r @ W_r) + h1` -/

theorem conv2_eq : val_main_v81 (F := Ideal) x0 x1 x3 x4 x5 x6 x7 x8 x9
      = resArr (val_main_v74 (F := Ideal) x0 x1 x3 x4 x5 x6 x7 x8 x9) (val_main_v56 (F := Ideal) x0 x1 x3 x4 x5 x6 x7 x8 x9)
          (val_main_v31 (F := Ideal) x0 x1 x3 x4 x5 x6 x7) x5 (fun q => x6 (ix1 q)) x7 := by
  funext i
  obtain ⟨r, q, rfl⟩ : ∃ (r : Fin 50000) (q : Fin 128), i = ix2 r q := ⟨i 0, i 1, eq_ix2 i⟩
  rw [val_main_v81_apply, val_main_v80_apply, val_main_v78_apply, val_main_v75_apply, val_main_v77_apply, val_main_v76_apply,
    val_main_v79_apply]
  generalize val_main_v74 (F := Ideal) x0 x1 x3 x4 x5 x6 x7 x8 x9 = M
  generalize val_main_v56 (F := Ideal) x0 x1 x3 x4 x5 x6 x7 x8 x9 = R
  generalize val_main_v31 (F := Ideal) x0 x1 x3 x4 x5 x6 x7 = H1
  rw [sum_rowMat M x5 r q (lidx_main_v75 (ix2 r q)) (ridx_main_v75 (ix2 r q)) (fun k => by idx2) (fun k => by idx2),
    sum_rowMat R x7 r q (lidx_main_v79 (ix2 r q)) (ridx_main_v79 (ix2 r q)) (fun k => by idx2) (fun k => by idx2),
    show idx_main_v76 (idx_main_v77 (ix2 r q)) = ix1 q by idx1]
  rfl

/-! ## The second layer normalisation with its rectifier, read at a row and a column -/

/-- Row `r`'s mean: the row's sum, started from the float zero, over the float `128`. -/
theorem mean2_at (r : Fin 50000) :
    val_main_v85 (F := Ideal) x0 x1 x3 x4 x5 x6 x7 x8 x9 (ix2 r (0 : Fin 1))
      = Ideal.div (Ideal.ofBits .f32 0x00000000#32 + ∑ k : Fin 128, val_main_v81 (F := Ideal) x0 x1 x3 x4 x5 x6 x7 x8 x9 (ix2 r k))
          (Ideal.ofBits .f32 0x43000000#32) := by
  rw [val_main_v85_apply, val_main_v83_apply, val_main_v82_apply, val_main_v84_apply,
    val_main_cst_16_apply, val_main_cst_15_apply]
  generalize val_main_v81 (F := Ideal) x0 x1 x3 x4 x5 x6 x7 x8 x9 = H
  rw [sum_reindex H (idx_main_v82 (idx_main_v83 (ix2 r (0 : Fin 1)))) (ix2 r) (fun k => by idx2)]
  rfl

/-- The squared deviation of the entry at `(r, k)` from row `r`'s mean. -/
theorem dev2_at (r : Fin 50000) (k : Fin 128) :
    val_main_v88 (F := Ideal) x0 x1 x3 x4 x5 x6 x7 x8 x9 (ix2 r k)
      = (val_main_v81 (F := Ideal) x0 x1 x3 x4 x5 x6 x7 x8 x9 (ix2 r k) - val_main_v85 (F := Ideal) x0 x1 x3 x4 x5 x6 x7 x8 x9 (ix2 r (0 : Fin 1)))
        * (val_main_v81 (F := Ideal) x0 x1 x3 x4 x5 x6 x7 x8 x9 (ix2 r k) - val_main_v85 (F := Ideal) x0 x1 x3 x4 x5 x6 x7 x8 x9 (ix2 r (0 : Fin 1))) := by
  rw [val_main_v88_apply, val_main_v87_apply, val_main_v86_apply,
    show idx_main_v86 (ix2 r k) = ix2 r (0 : Fin 1) by idx2]
  rfl

/-- Row `r`'s variance: the sum of the squared deviations, started from the float zero, over the float `128`. -/
theorem var2_at (r : Fin 50000) :
    val_main_v92 (F := Ideal) x0 x1 x3 x4 x5 x6 x7 x8 x9 (ix2 r (0 : Fin 1))
      = Ideal.div (Ideal.ofBits .f32 0x00000000#32 + ∑ k : Fin 128,
            (val_main_v81 (F := Ideal) x0 x1 x3 x4 x5 x6 x7 x8 x9 (ix2 r k) - val_main_v85 (F := Ideal) x0 x1 x3 x4 x5 x6 x7 x8 x9 (ix2 r (0 : Fin 1)))
            * (val_main_v81 (F := Ideal) x0 x1 x3 x4 x5 x6 x7 x8 x9 (ix2 r k) - val_main_v85 (F := Ideal) x0 x1 x3 x4 x5 x6 x7 x8 x9 (ix2 r (0 : Fin 1))))
          (Ideal.ofBits .f32 0x43000000#32) := by
  rw [val_main_v92_apply, val_main_v90_apply, val_main_v89_apply, val_main_v91_apply,
    val_main_cst_18_apply, val_main_cst_17_apply,
    sum_reindex (val_main_v88 (F := Ideal) x0 x1 x3 x4 x5 x6 x7 x8 x9) (idx_main_v89 (idx_main_v90 (ix2 r (0 : Fin 1))))
      (ix2 r) (fun k => by idx2)]
  simp only [dev2_at]
  rfl

/-- The normalised, rectified entry at `(r, q)` is the row-wise map of row `r`, read at `q`. -/
theorem act2_at (r : Fin 50000) (q : Fin 128) :
    val_main_v106 (F := Ideal) x0 x1 x3 x4 x5 x6 x7 x8 x9 (ix2 r q)
      = actRow (rowOf (val_main_v81 (F := Ideal) x0 x1 x3 x4 x5 x6 x7 x8 x9) r) (fun q => x8 (ix1 q)) (fun q => x9 (ix1 q)) q := by
  rw [val_main_v106_apply, val_main_v105_apply, val_main_v102_apply, val_main_v99_apply, val_main_v94_apply,
    val_main_v93_apply, val_main_v98_apply, val_main_v97_apply, val_main_v96_apply, val_main_v95_apply,
    val_main_cst_19_apply, val_main_v101_apply, val_main_v100_apply, val_main_v104_apply, val_main_v103_apply,
    val_main_call1_v0_apply, val_main_call1_cst_apply,
    show idx_main_v93 (ix2 r q) = ix2 r (0 : Fin 1) by idx2, show idx_main_v98 (ix2 r q) = ix2 r (0 : Fin 1) by idx2,
    show idx_main_v100 (idx_main_v101 (ix2 r q)) = ix1 q by idx1,
    show idx_main_v103 (idx_main_v104 (ix2 r q)) = ix1 q by idx1]
  exact actRow_of_mean_var _ (fun q => x8 (ix1 q)) (fun q => x9 (ix1 q)) r q _ _
    (mean2_at x0 x1 x3 x4 x5 x6 x7 x8 x9 r) (var2_at x0 x1 x3 x4 x5 x6 x7 x8 x9 r)

/-! ## The output projection of the normalised, rectified rows: `act @ W_lin + b_lin` -/

theorem out_eq : val_main_v110 (F := Ideal) x0 x1 x3 x4 x5 x6 x7 x8 x9 x10 x11
      = outArr (val_main_v81 (F := Ideal) x0 x1 x3 x4 x5 x6 x7 x8 x9) (fun q => x8 (ix1 q)) (fun q => x9 (ix1 q)) x10
          (fun q => x11 (ix1 q)) := by
  funext i
  obtain ⟨r, q, rfl⟩ : ∃ (r : Fin 50000) (q : Fin 64), i = ix2 r q := ⟨i 0, i 1, eq_ix2 i⟩
  rw [val_main_v110_apply, val_main_v107_apply, val_main_v109_apply, val_main_v108_apply,
    sum_rowMat_of (val_main_v106 (F := Ideal) x0 x1 x3 x4 x5 x6 x7 x8 x9) x10
      (actRow (rowOf (val_main_v81 (F := Ideal) x0 x1 x3 x4 x5 x6 x7 x8 x9) r) (fun q => x8 (ix1 q)) (fun q => x9 (ix1 q))) r q
      (lidx_main_v107 (ix2 r q)) (ridx_main_v107 (ix2 r q)) (fun k => by idx2) (fun k => by idx2)
      (fun k => act2_at x0 x1 x3 x4 x5 x6 x7 x8 x9 r k),
    show idx_main_v108 (idx_main_v109 (ix2 r q)) = ix1 q by idx1]
  generalize val_main_v81 (F := Ideal) x0 x1 x3 x4 x5 x6 x7 x8 x9 = H
  rfl

end Cert.ReferenceIdeal.RefValue

end
-- ==== Proof.MeanLaw.lean ====
/-
  Dividing by a count is multiplying by its reciprocal.

  On the extended reals a quotient `s / c` by a nonzero `c` is `s · c⁻¹`, and `1 / c` is `c⁻¹`; so `s · (1 / c) = s / c`
  for every `s`, finite or not.  A count clipped below at one is at least one, hence nonzero.  Read row by row, an
  array of sums times the broadcast column of reciprocal clipped counts is the array divided by the broadcast column of
  clipped counts.
-/
import Idealize.ShloMosaic.PureOps.Ideal.Laws
import Idealize.ShloMosaic.Lib.IdealHost
import Idealize.ShloMosaic.Lib.ValueIdx
import Idealize.ShloMosaic.Lib.Pipeline.Value

noncomputable section

namespace Cert.Sage

open Idealize.ShloMosaic Idealize.ShloMosaic.ValueIdx

/-- A product with the reciprocal of a nonzero extended real is the quotient by it. -/
theorem mul_one_div (s c : EReal) (hc : c ≠ 0) : s * Ideal.div 1 c = Ideal.div s c := by
  unfold Ideal.div
  rw [if_neg hc, if_neg hc, one_mul]

/-- A value clipped below at one is not zero. -/
theorem max_one_ne_zero (x : EReal) : max x 1 ≠ 0 :=
  ne_of_gt (lt_of_lt_of_le zero_lt_one (le_max_right x 1))

/-- An `[n, 1]` column broadcast along the rows of an `[n, d]` array reads, at an index, the column at the index's row. -/
theorem bcastCol_apply {n d : ℕ} (hn : n ≠ 1)
    (h : (⟨2, ![n, 1]⟩ : Shape).BroadcastsInDim ⟨2, ![n, d]⟩ ![0, 1]) (f : (⟨2, ![n, 1]⟩ : Shape).Idx → EReal)
    (i : (⟨2, ![n, d]⟩ : Shape).Idx) :
    broadcastInDim ⟨2, ![n, d]⟩ ![0, 1] h f i = f (ix2 (i 0) (0 : Fin 1)) :=
  broadcastInDim_apply _ h f i (ix2 (i 0) (0 : Fin 1)) fun a => match a with
    | ⟨0, _⟩ => by show (i 0).val = if n = 1 then 0 else (i 0).val; rw [if_neg hn]
    | ⟨1, _⟩ => by show 0 = if (1 : ℕ) = 1 then 0 else (i 1).val; rw [if_pos rfl]

/-- The array of sums times the broadcast reciprocals of the clipped counts is the array divided by the broadcast
    clipped counts. -/
theorem mean_law {n d : ℕ} (hn : n ≠ 1)
    (h : (⟨2, ![n, 1]⟩ : Shape).BroadcastsInDim ⟨2, ![n, d]⟩ ![0, 1])
    (hs : (⟨0, ![]⟩ : Shape).BroadcastsInDim ⟨2, ![n, 1]⟩ ![])
    (S : (⟨2, ![n, d]⟩ : Shape).Idx → EReal) (cnt : (⟨2, ![n, 1]⟩ : Shape).Idx → EReal) :
    mulf (F := Ideal) (φ := .f32) S (broadcastInDim ⟨2, ![n, d]⟩ ![0, 1] h
        (Host.divf (F := Ideal) (φ := .f32) (broadcastInDim ⟨2, ![n, 1]⟩ ![] hs (constant (F := Ideal) ⟨0, ![]⟩ .f32 0x3F800000#32))
          (maximumf (F := Ideal) (φ := .f32) cnt (broadcastInDim ⟨2, ![n, 1]⟩ ![] hs (constant (F := Ideal) ⟨0, ![]⟩ .f32 0x3F800000#32)))))
      = Host.divf (F := Ideal) (φ := .f32) S (broadcastInDim ⟨2, ![n, d]⟩ ![0, 1] h
          (maximumf (F := Ideal) (φ := .f32) cnt (broadcastInDim ⟨2, ![n, 1]⟩ ![] hs (constant (F := Ideal) ⟨0, ![]⟩ .f32 0x3F800000#32)))) := by
  funext i
  show S i * _ = Ideal.div (S i) _
  rw [bcastCol_apply hn, bcastCol_apply hn]
  show S i * Ideal.div (Ideal.ofBits .f32 0x3F800000#32) (max (cnt (ix2 (i 0) 0)) (Ideal.ofBits .f32 0x3F800000#32))
    = Ideal.div (S i) (max (cnt (ix2 (i 0) 0)) (Ideal.ofBits .f32 0x3F800000#32))
  rw [Ideal.ofBits_one_f32]
  exact mul_one_div _ _ (max_one_ne_zero _)

end Cert.Sage

end
-- ==== Proof.Bridge.lean ====
/-
  The two programs compute one function, and the claims.

  The reference's stages are the same row-wise maps of the same arrays as the kernel program's, except that it DIVIDES
  the aggregated rows by the clipped counts where the kernel program MULTIPLIES them by the reciprocals: on the extended
  reals the two agree for every row, because a clipped count is never zero.  The gather along the edges' sources and
  the scatter-add into the edges' destinations are the same operations on the same index columns in both programs, so
  they are carried along unopened.  A bias, gain or offset vector recast as a one-row array reads its entry.
-/
import proofs.«130707_j87376814670104_1_alg».proof.Defs
import proofs.«130707_j87376814670104_1_alg».proof.Proof.Gen.Kernel.Frame
import proofs.«130707_j87376814670104_1_alg».proof.Proof.Gen.Pre_finite_inputs
import proofs.«130707_j87376814670104_1_alg».proof.Proof.KernelRun
import proofs.«130707_j87376814670104_1_alg».proof.Proof.Chain
import proofs.«130707_j87376814670104_1_alg».proof.Proof.RefValue
import proofs.«130707_j87376814670104_1_alg».proof.Proof.MeanLaw
import Idealize.ShloMosaic.Lib.ValueLayout

set_option maxRecDepth 16384

noncomputable section

open Idealize.ShloMosaic Idealize.ShloMosaic.TcCoe Idealize.ShloMosaic.ValueIdx Idealize.SL.Sem

namespace Cert.Proof.Bridge

open Cert.Sage Cert.KernelIdeal.Hand Cert.ReferenceIdeal.Read Cert.ReferenceIdeal.RefValue

/-- A vector recast as a one-row array reads, in its row, the vector's entries. -/
theorem row_of_cast {a : ℕ} (x : (⟨1, ![a]⟩ : Shape).Idx → EReal) (h : (⟨1, ![a]⟩ : Shape).ShapeCasts ⟨2, ![1, a]⟩) :
    rowOf (n := 1) (shapeCast ⟨2, ![1, a]⟩ x h) 0 = fun q => x (ix1 q) :=
  funext fun q => shapeCast_a_1a_apply x h 0 q

variable (x0 : (⟨Cert.KernelIdeal.S50000x128, .f32⟩ : BufTy).Contents (Elt Ideal)) (x1 : (⟨Cert.KernelIdeal.S2x800000, .i32⟩ : BufTy).Contents (Elt Ideal))
  (x3 : (⟨Cert.KernelIdeal.S128x128, .f32⟩ : BufTy).Contents (Elt Ideal)) (x4 : (⟨Cert.KernelIdeal.S128, .f32⟩ : BufTy).Contents (Elt Ideal))
  (x5 : (⟨Cert.KernelIdeal.S128x128, .f32⟩ : BufTy).Contents (Elt Ideal)) (x6 : (⟨Cert.KernelIdeal.S128, .f32⟩ : BufTy).Contents (Elt Ideal))
  (x7 : (⟨Cert.KernelIdeal.S128x128, .f32⟩ : BufTy).Contents (Elt Ideal)) (x8 x9 : (⟨Cert.KernelIdeal.S128, .f32⟩ : BufTy).Contents (Elt Ideal))
  (x10 : (⟨Cert.KernelIdeal.S128x64, .f32⟩ : BufTy).Contents (Elt Ideal)) (x11 : (⟨Cert.KernelIdeal.S64, .f32⟩ : BufTy).Contents (Elt Ideal))

/-- The aggregated rows times the reciprocal clipped counts are the aggregated rows divided by the clipped counts. -/
theorem aggMul_eq_div (H : (⟨Cert.KernelIdeal.S50000x128, .f32⟩ : BufTy).Contents (Elt Ideal)) :
    aggMul H (srcOf x1) (dstOf x1) (invOf x1)
      = Host.divf (F := Ideal) (φ := .f32) (aggSum H (srcOf x1) (dstOf x1))
          (broadcastInDim Cert.KernelIdeal.S50000x128 ![0, 1] Cert.KernelIdeal.Facts₀.bcast_S50000x1_S50000x128_0_1
            (maximumf (F := Ideal) (φ := .f32) (cntOf x1)
              (broadcastInDim Cert.KernelIdeal.S50000x1 ![] Cert.KernelIdeal.Facts₀.bcast_S_S50000x1 (constant (F := Ideal) Cert.KernelIdeal.S_ .f32 0x3F800000#32)))) :=
  mean_law (n := 50000) (d := 128) (by decide) Cert.KernelIdeal.Facts₀.bcast_S50000x1_S50000x128_0_1 Cert.KernelIdeal.Facts₀.bcast_S_S50000x1
    (aggSum H (srcOf x1) (dstOf x1)) (cntOf x1)

/-- The reference's first mean-aggregated array is the kernel program's aggregation of the same rows. -/
theorem v25_eq : val_main_v25 (F := Ideal) x0 x1 x3 x4 = aggMul (val_main_v7 (F := Ideal) x0 x3 x4) (srcOf x1) (dstOf x1) (invOf x1) := by
  rw [aggMul_eq_div]
  rfl

/-- The reference's second mean-aggregated array likewise. -/
theorem v74_eq : val_main_v74 (F := Ideal) x0 x1 x3 x4 x5 x6 x7 x8 x9
    = aggMul (val_main_v56 (F := Ideal) x0 x1 x3 x4 x5 x6 x7 x8 x9) (srcOf x1) (dstOf x1) (invOf x1) := by
  rw [aggMul_eq_div]
  rfl

/-- The kernel program's network is the reference's result stage. -/
theorem kres_eq_ref : kres x0 x1 x3 x4 x5 x6 x7 x8 x9 x10 x11 = val_main_v110 (F := Ideal) x0 x1 x3 x4 x5 x6 x7 x8 x9 x10 x11 := by
  rw [out_eq, conv2_eq, v74_eq, act1_eq, conv1_eq, v25_eq, enc_eq]
  unfold kres
  simp only [row_of_cast]

end Cert.Proof.Bridge

/-! ## The claims -/

namespace Cert.Proof.Claims

open Cert.Proof.Bridge

/-- The kernel program's run with its result named: the network of the argument arrays. -/
theorem run_k (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v43)
        = Cert.KernelIdeal.Hand.kres (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) :=
  (θ_run (Cert.KernelIdeal.defs (F := Ideal)) _ _).mono
    (fun r h c => ⟨(h c).1.trans (Cert.KernelIdeal.Hand.W6_v43 m ρ c), (h c).2⟩) (Cert.KernelIdeal.Run.run_named (F := Ideal) m ρ)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the network of the arguments in their result
    arrays. -/
theorem algebraic : Cert.algebraic_KernelIdeal_ReferenceIdeal := by
  intro m ρ m' ρ' _ hagree
  refine ⟨_, run_k m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v110_eq, e0, e1, e3, e4, e5, e6, e7, e8, e9, e10, e11]
  exact (kres_eq_ref _ _ _ _ _ _ _ _ _ _ _).symm

end Cert.Proof.Claims

end
-- ==== Proof.lean ====
/-
  A two-layer neighbourhood-mean graph network — encode each node's features, twice aggregate the neighbours' rows by
  their mean and convolve, with a layer normalisation and a rectifier after each convolution, a residual around the
  second, and a final projection — computed by three row-blocked calls with the aggregation between them, against the
  same network written as whole-array operations.

  Both programs are the same row-wise maps of the same arrays (Proof/Spec.lean): a block of rows of a row-wise map is
  the map of the block (Proof/Region0.lean, Region1.lean, Region2.lean read each call's output array; Proof/Chain.lean
  reads the result back through the calls and the host operations between them), and the reference's stages are those
  maps read at an index (Proof/RefValue.lean).  The one difference is the mean: the calls' program multiplies the
  aggregated rows by the reciprocal of the clipped neighbour count, the reference divides by the count; on the extended
  reals these agree at every value because the clipped count is at least one (Proof/MeanLaw.lean, Proof/Bridge.lean).
  Nothing was rewritten when the program was idealised, so the idealisation claim is trivial.
-/
import proofs.«130707_j87376814670104_1_alg».proof.Defs
import proofs.«130707_j87376814670104_1_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
